-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x64x4096 : Shape := ⟨3, ![128, 64, 4096]⟩
abbrev S128x3 : Shape := ⟨2, ![128, 3]⟩
abbrev S32x3 : Shape := ⟨2, ![32, 3]⟩
abbrev S32 : Shape := ⟨1, ![32]⟩
abbrev S4096x32 : Shape := ⟨2, ![4096, 32]⟩
abbrev S4096 : Shape := ⟨1, ![4096]⟩
abbrev S64x32 : Shape := ⟨2, ![64, 32]⟩
abbrev S64 : Shape := ⟨1, ![64]⟩
abbrev S_ : Shape := ⟨0, ![]⟩

class Facts : Prop where
  bcast_S_S128x64x4096 : S_.BroadcastsInDim S128x64x4096 (![] : Fin 0 → Fin S128x64x4096.rank)
  reducesTo_S128x64x4096_S_d0_1_2 : S128x64x4096.ReducesTo [0, 1, 2] S_
  h_S_ : 0 < S_.numel
  bcast_S_S128x3 : S_.BroadcastsInDim S128x3 (![] : Fin 0 → Fin S128x3.rank)
  reducesTo_S128x3_S_d0_1 : S128x3.ReducesTo [0, 1] S_
  bcast_S_S32x3 : S_.BroadcastsInDim S32x3 (![] : Fin 0 → Fin S32x3.rank)
  reducesTo_S32x3_S_d0_1 : S32x3.ReducesTo [0, 1] S_
  bcast_S_S32 : S_.BroadcastsInDim S32 (![] : Fin 0 → Fin S32.rank)
  reducesTo_S32_S_d0 : S32.ReducesTo [0] S_
  bcast_S_S4096x32 : S_.BroadcastsInDim S4096x32 (![] : Fin 0 → Fin S4096x32.rank)
  reducesTo_S4096x32_S_d0_1 : S4096x32.ReducesTo [0, 1] S_
  bcast_S_S4096 : S_.BroadcastsInDim S4096 (![] : Fin 0 → Fin S4096.rank)
  reducesTo_S4096_S_d0 : S4096.ReducesTo [0] S_
  bcast_S_S64x32 : S_.BroadcastsInDim S64x32 (![] : Fin 0 → Fin S64x32.rank)
  reducesTo_S64x32_S_d0_1 : S64x32.ReducesTo [0, 1] S_
  bcast_S_S64 : S_.BroadcastsInDim S64 (![] : Fin 0 → Fin S64.rank)
  reducesTo_S64_S_d0 : S64.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S32 .f32) (main_arg12 : FVec F S64x32 .f32) (main_arg13 : FVec F S64 .f32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_v54 : FVec F S32 .f32 := Host.absf main_arg11
  let main_cst_20 : FVec F S_ .f32 := constant S_ .f32 0x7F800000#32
  let main_v55 : FVec F S32 .f32 := broadcastInDim S32 ![] bcast_S_S32 main_cst_20
  let main_v56 : IVec S32 1 := cmpf .olt main_v54 main_v55
  let main_c_21 : IVec S_ 1 := constantI S_ 1 1#1
  let main_v57 : IVec S_ 1 := (fun x v => Host.reduce IntOp.andi x v reducesTo_S32_S_d0 h_S_) main_v56 main_c_21
  let main_v58 : IVec S_ 1 := andi main_v53 main_v57
  let main_v59 : FVec F S64x32 .f32 := Host.absf main_arg12
  let main_cst_22 : FVec F S_ .f32 := constant S_ .f32 0x7F800000#32
  let main_v60 : FVec F S64x32 .f32 := broadcastInDim S64x32 ![] bcast_S_S64x32 main_cst_22
  let main_v61 : IVec S64x32 1 := cmpf .olt main_v59 main_v60
  let main_c_23 : IVec S_ 1 := constantI S_ 1 1#1
  let main_v62 : IVec S_ 1 := (fun x v => Host.reduce IntOp.andi x v reducesTo_S64x32_S_d0_1 h_S_) main_v61 main_c_23
  let main_v63 : IVec S_ 1 := andi main_v58 main_v62
  let main_v64 : FVec F S64 .f32 := Host.absf main_arg13
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_v63 main_v67

def fn_part2 {F : FTy → Type} [FloatOps F] (main_arg7 : FVec F S4096 .f32) (main_arg8 : FVec F S32x3 .f32) (main_arg9 : FVec F S32 .f32) (main_arg10 : FVec F S32 .f32) (main_arg11 : FVec F S32 .f32) (main_arg12 : FVec F S64x32 .f32) (main_arg13 : FVec F S64 .f32) (main_v33 : IVec S_ 1) : IVec S_ 1 :=
  let main_v34 : FVec F S4096 .f32 := Host.absf main_arg7
  let main_cst_12 : FVec F S_ .f32 := constant S_ .f32 0x7F800000#32
  let main_v35 : FVec F S4096 .f32 := broadcastInDim S4096 ![] bcast_S_S4096 main_cst_12
  let main_v36 : IVec S4096 1 := cmpf .olt main_v34 main_v35
  let main_c_13 : IVec S_ 1 := constantI S_ 1 1#1
  let main_v37 : IVec S_ 1 := (fun x v => Host.reduce IntOp.andi x v reducesTo_S4096_S_d0 h_S_) main_v36 main_c_13
  let main_v38 : IVec S_ 1 := andi main_v33 main_v37
  let main_v39 : FVec F S32x3 .f32 := Host.absf main_arg8
  let main_cst_14 : FVec F S_ .f32 := constant S_ .f32 0x7F800000#32
  let main_v40 : FVec F S32x3 .f32 := broadcastInDim S32x3 ![] bcast_S_S32x3 main_cst_14
  let main_v41 : IVec S32x3 1 := cmpf .olt main_v39 main_v40
  let main_c_15 : IVec S_ 1 := constantI S_ 1 1#1
  let main_v42 : IVec S_ 1 := (fun x v => Host.reduce IntOp.andi x v reducesTo_S32x3_S_d0_1 h_S_) main_v41 main_c_15
  let main_v43 : IVec S_ 1 := andi main_v38 main_v42
  let main_v44 : FVec F S32 .f32 := Host.absf main_arg9
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S32 .f32 := Host.absf main_arg10
  let main_cst_18 : FVec F S_ .f32 := constant S_ .f32 0x7F800000#32
  let main_v50 : FVec F S32 .f32 := broadcastInDim S32 ![] bcast_S_S32 main_cst_18
  fn_part3 (F := F) main_arg11 main_arg12 main_arg13 main_v48 main_v49 main_v50

def fn_part1 {F : FTy → Type} [FloatOps F] (main_arg4 : FVec F S32 .f32) (main_arg5 : FVec F S32 .f32) (main_arg6 : FVec F S4096x32 .f32) (main_arg7 : FVec F S4096 .f32) (main_arg8 : FVec F S32x3 .f32) (main_arg9 : FVec F S32 .f32) (main_arg10 : FVec F S32 .f32) (main_arg11 : FVec F S32 .f32) (main_arg12 : FVec F S64x32 .f32) (main_arg13 : FVec F S64 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S4096x32 .f32 := Host.absf main_arg6
  let main_cst_10 : FVec F S_ .f32 := constant S_ .f32 0x7F800000#32
  let main_v30 : FVec F S4096x32 .f32 := broadcastInDim S4096x32 ![] bcast_S_S4096x32 main_cst_10
  let main_v31 : IVec S4096x32 1 := cmpf .olt main_v29 main_v30
  let main_c_11 : IVec S_ 1 := constantI S_ 1 1#1
  let main_v32 : IVec S_ 1 := (fun x v => Host.reduce IntOp.andi x v reducesTo_S4096x32_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S128x64x4096 .f32) (main_arg1 : FVec F S128x3 .f32) (main_arg2 : FVec F S32x3 .f32) (main_arg3 : FVec F S32 .f32) (main_arg4 : FVec F S32 .f32) (main_arg5 : FVec F S32 .f32) (main_arg6 : FVec F S4096x32 .f32) (main_arg7 : FVec F S4096 .f32) (main_arg8 : FVec F S32x3 .f32) (main_arg9 : FVec F S32 .f32) (main_arg10 : FVec F S32 .f32) (main_arg11 : FVec F S32 .f32) (main_arg12 : FVec F S64x32 .f32) (main_arg13 : FVec F S64 .f32) : IVec S_ 1 :=
  let main_v0 : FVec F S128x64x4096 .f32 := Host.absf main_arg0
  let main_cst : FVec F S_ .f32 := constant S_ .f32 0x7F800000#32
  let main_v1 : FVec F S128x64x4096 .f32 := broadcastInDim S128x64x4096 ![] bcast_S_S128x64x4096 main_cst
  let main_v2 : IVec S128x64x4096 1 := cmpf .olt main_v0 main_v1
  let main_c : IVec S_ 1 := constantI S_ 1 1#1
  let main_v3 : IVec S_ 1 := (fun x v => Host.reduce IntOp.andi x v reducesTo_S128x64x4096_S_d0_1_2 h_S_) main_v2 main_c
  let main_v4 : FVec F S128x3 .f32 := Host.absf main_arg1
  let main_cst_0 : FVec F S_ .f32 := constant S_ .f32 0x7F800000#32
  let main_v5 : FVec F S128x3 .f32 := broadcastInDim S128x3 ![] bcast_S_S128x3 main_cst_0
  let main_v6 : IVec S128x3 1 := cmpf .olt main_v4 main_v5
  let main_c_1 : IVec S_ 1 := constantI S_ 1 1#1
  let main_v7 : IVec S_ 1 := (fun x v => Host.reduce IntOp.andi x v reducesTo_S128x3_S_d0_1 h_S_) main_v6 main_c_1
  let main_v8 : IVec S_ 1 := andi main_v3 main_v7
  let main_v9 : FVec F S32x3 .f32 := Host.absf main_arg2
  let main_cst_2 : FVec F S_ .f32 := constant S_ .f32 0x7F800000#32
  let main_v10 : FVec F S32x3 .f32 := broadcastInDim S32x3 ![] bcast_S_S32x3 main_cst_2
  let main_v11 : IVec S32x3 1 := cmpf .olt main_v9 main_v10
  let main_c_3 : IVec S_ 1 := constantI S_ 1 1#1
  let main_v12 : IVec S_ 1 := (fun x v => Host.reduce IntOp.andi x v reducesTo_S32x3_S_d0_1 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg4 main_arg5 main_arg6 main_arg7 main_arg8 main_arg9 main_arg10 main_arg11 main_arg12 main_arg13 main_v13 main_v16
-- ==== Kernel.lean ====
abbrev S128x64x4096 : Shape := ⟨3, ![128, 64, 4096]⟩
abbrev S128x3 : Shape := ⟨2, ![128, 3]⟩
abbrev S32x3 : Shape := ⟨2, ![32, 3]⟩
abbrev S32 : Shape := ⟨1, ![32]⟩
abbrev S4096x32 : Shape := ⟨2, ![4096, 32]⟩
abbrev S4096 : Shape := ⟨1, ![4096]⟩
abbrev S64x32 : Shape := ⟨2, ![64, 32]⟩
abbrev S64 : Shape := ⟨1, ![64]⟩
abbrev S3x32 : Shape := ⟨2, ![3, 32]⟩
abbrev S128x32 : Shape := ⟨2, ![128, 32]⟩
abbrev S1x32 : Shape := ⟨2, ![1, 32]⟩
abbrev S_ : Shape := ⟨0, ![]⟩
abbrev S128 : Shape := ⟨1, ![128]⟩
abbrev S128x1 : Shape := ⟨2, ![128, 1]⟩
abbrev S32x4096 : Shape := ⟨2, ![32, 4096]⟩
abbrev S128x4096 : Shape := ⟨2, ![128, 4096]⟩
abbrev S1x4096 : Shape := ⟨2, ![1, 4096]⟩
abbrev S128x64x64 : Shape := ⟨3, ![128, 64, 64]⟩
abbrev S32x64 : Shape := ⟨2, ![32, 64]⟩
abbrev S128x64 : Shape := ⟨2, ![128, 64]⟩
abbrev S1x64 : Shape := ⟨2, ![1, 64]⟩
abbrev S128x64x128 : Shape := ⟨3, ![128, 64, 128]⟩
abbrev S128x64x1 : Shape := ⟨3, ![128, 64, 1]⟩

abbrev nBuf : Space → Nat
  | .hbm => 130
  | .vmem => 6
  | .smem => 0
  | _ => 0

abbrev hbmTy0_0 (i : Nat) : BufTy := match i % 128 with
  | 0 => ⟨S128x64x4096, .f32⟩
  | 1 => ⟨S128x3, .f32⟩
  | 2 => ⟨S32x3, .f32⟩
  | 3 => ⟨S32, .f32⟩
  | 4 => ⟨S32, .f32⟩
  | 5 => ⟨S32, .f32⟩
  | 6 => ⟨S4096x32, .f32⟩
  | 7 => ⟨S4096, .f32⟩
  | 8 => ⟨S32x3, .f32⟩
  | 9 => ⟨S32, .f32⟩
  | 10 => ⟨S32, .f32⟩
  | 11 => ⟨S32, .f32⟩
  | 12 => ⟨S64x32, .f32⟩
  | 13 => ⟨S64, .f32⟩
  | 14 => ⟨S3x32, .f32⟩
  | 15 => ⟨S128x32, .f32⟩
  | 16 => ⟨S1x32, .f32⟩
  | 17 => ⟨S128x32, .f32⟩
  | 18 => ⟨S128x32, .f32⟩
  | 19 => ⟨S_, .f32⟩
  | 20 => ⟨S128, .f32⟩
  | 21 => ⟨S128x1, .f32⟩
  | 22 => ⟨S_, .f32⟩
  | 23 => ⟨S128x1, .f32⟩
  | 24 => ⟨S128x1, .f32⟩
  | 25 => ⟨S_, .i32⟩
  | 26 => ⟨S_, .f32⟩
  | 27 => ⟨S128, .f32⟩
  | 28 => ⟨S128x1, .f32⟩
  | 29 => ⟨S_, .f32⟩
  | 30 => ⟨S128x1, .f32⟩
  | 31 => ⟨S128x1, .f32⟩
  | 32 => ⟨S128x32, .f32⟩
  | 33 => ⟨S128x32, .f32⟩
  | 34 => ⟨S128x32, .f32⟩
  | 35 => ⟨S_, .f32⟩
  | 36 => ⟨S_, .f32⟩
  | 37 => ⟨S_, .f32⟩
  | 38 => ⟨S_, .f32⟩
  | 39 => ⟨S128, .f32⟩
  | 40 => ⟨S128x1, .f32⟩
  | 41 => ⟨S128x1, .f32⟩
  | 42 => ⟨S128x1, .f32⟩
  | 43 => ⟨S_, .f32⟩
  | 44 => ⟨S_, .i1⟩
  | 45 => ⟨S_, .f32⟩
  | 46 => ⟨S_, .f32⟩
  | 47 => ⟨S128x1, .f32⟩
  | 48 => ⟨S128x1, .f32⟩
  | 49 => ⟨S128x32, .f32⟩
  | 50 => ⟨S128x32, .f32⟩
  | 51 => ⟨S_, .f32⟩
  | 52 => ⟨S128x1, .f32⟩
  | 53 => ⟨S128x1, .f32⟩
  | 54 => ⟨S128x1, .f32⟩
  | 55 => ⟨S128x32, .f32⟩
  | 56 => ⟨S128x32, .f32⟩
  | 57 => ⟨S1x32, .f32⟩
  | 58 => ⟨S128x32, .f32⟩
  | 59 => ⟨S128x32, .f32⟩
  | 60 => ⟨S1x32, .f32⟩
  | 61 => ⟨S128x32, .f32⟩
  | 62 => ⟨S128x32, .f32⟩
  | 63 => ⟨S_, .f32⟩
  | 64 => ⟨S128x32, .f32⟩
  | 65 => ⟨S128x32, .f32⟩
  | 66 => ⟨S32x4096, .f32⟩
  | 67 => ⟨S128x4096, .f32⟩
  | 68 => ⟨S1x4096, .f32⟩
  | 69 => ⟨S128x4096, .f32⟩
  | 70 => ⟨S128x4096, .f32⟩
  | 71 => ⟨S128x64x64, .f32⟩
  | 72 => ⟨S3x32, .f32⟩
  | 73 => ⟨S128x32, .f32⟩
  | 74 => ⟨S1x32, .f32⟩
  | 75 => ⟨S128x32, .f32⟩
  | 76 => ⟨S128x32, .f32⟩
  | 77 => ⟨S_, .f32⟩
  | 78 => ⟨S128, .f32⟩
  | 79 => ⟨S128x1, .f32⟩
  | 80 => ⟨S_, .f32⟩
  | 81 => ⟨S128x1, .f32⟩
  | 82 => ⟨S128x1, .f32⟩
  | 83 => ⟨S_, .i32⟩
  | 84 => ⟨S_, .f32⟩
  | 85 => ⟨S128, .f32⟩
  | 86 => ⟨S128x1, .f32⟩
  | 87 => ⟨S_, .f32⟩
  | 88 => ⟨S128x1, .f32⟩
  | 89 => ⟨S128x1, .f32⟩
  | 90 => ⟨S128x32, .f32⟩
  | 91 => ⟨S128x32, .f32⟩
  | 92 => ⟨S128x32, .f32⟩
  | 93 => ⟨S_, .f32⟩
  | 94 => ⟨S_, .f32⟩
  | 95 => ⟨S_, .f32⟩
  | 96 => ⟨S_, .f32⟩
  | 97 => ⟨S128, .f32⟩
  | 98 => ⟨S128x1, .f32⟩
  | 99 => ⟨S128x1, .f32⟩
  | 100 => ⟨S128x1, .f32⟩
  | 101 => ⟨S_, .f32⟩
  | 102 => ⟨S_, .i1⟩
  | 103 => ⟨S_, .f32⟩
  | 104 => ⟨S_, .f32⟩
  | 105 => ⟨S128x1, .f32⟩
  | 106 => ⟨S128x1, .f32⟩
  | 107 => ⟨S128x32, .f32⟩
  | 108 => ⟨S128x32, .f32⟩
  | 109 => ⟨S_, .f32⟩
  | 110 => ⟨S128x1, .f32⟩
  | 111 => ⟨S128x1, .f32⟩
  | 112 => ⟨S128x1, .f32⟩
  | 113 => ⟨S128x32, .f32⟩
  | 114 => ⟨S128x32, .f32⟩
  | 115 => ⟨S1x32, .f32⟩
  | 116 => ⟨S128x32, .f32⟩
  | 117 => ⟨S128x32, .f32⟩
  | 118 => ⟨S1x32, .f32⟩
  | 119 => ⟨S128x32, .f32⟩
  | 120 => ⟨S128x32, .f32⟩
  | 121 => ⟨S_, .f32⟩
  | 122 => ⟨S128x32, .f32⟩
  | 123 => ⟨S128x32, .f32⟩
  | 124 => ⟨S32x64, .f32⟩
  | 125 => ⟨S128x64, .f32⟩
  | 126 => ⟨S1x64, .f32⟩
  | 127 => ⟨S128x64, .f32⟩
  | _ => ⟨S128x64x4096, .f32⟩

abbrev hbmTy0_1 (i : Nat) : BufTy := match i % 128 with
  | 0 => ⟨S128x64, .f32⟩
  | 1 => ⟨S128x64x4096, .f32⟩
  | _ => ⟨S128x64x4096, .f32⟩

abbrev hbmTy (i : Nat) : BufTy := match i / 128 with
  | 0 => hbmTy0_0 i
  | 1 => hbmTy0_1 i
  | _ => ⟨S128x64x4096, .f32⟩

abbrev bufTy : (tb : Table) → Fin (tcTables nBuf tb) → BufTy
  | .hbm, ⟨i, _⟩ => hbmTy i
  | .local _ .vmem, ⟨0, _⟩ => ⟨S128x64x64, .f32⟩
  | .local _ .vmem, ⟨1, _⟩ => ⟨S128x64, .f32⟩
  | .local _ .vmem, ⟨2, _⟩ => ⟨S128x64x128, .f32⟩
  | .local _ .vmem, ⟨3, _⟩ => ⟨S128x64x128, .f32⟩
  | .local _ .vmem, ⟨4, _⟩ => ⟨S128x64x128, .f32⟩
  | .local _ .vmem, ⟨5, _⟩ => ⟨S128x64x128, .f32⟩
  | _, _ => ⟨S128x64x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst : Ref sig .tc := ⟨.hbm, 19, rfl⟩
abbrev main_v5 : Ref sig .tc := ⟨.hbm, 20, rfl⟩
abbrev main_v6 : Ref sig .tc := ⟨.hbm, 21, rfl⟩
abbrev main_cst_0 : Ref sig .tc := ⟨.hbm, 22, rfl⟩
abbrev main_v7 : Ref sig .tc := ⟨.hbm, 23, rfl⟩
abbrev main_v8 : Ref sig .tc := ⟨.hbm, 24, rfl⟩
abbrev main_c : Ref sig .tc := ⟨.hbm, 25, rfl⟩
abbrev main_call0_cst : Ref sig .tc := ⟨.hbm, 26, rfl⟩
abbrev main_call0_v0 : Ref sig .tc := ⟨.hbm, 27, rfl⟩
abbrev main_call0_v1 : Ref sig .tc := ⟨.hbm, 28, rfl⟩
abbrev main_call0_cst_0 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_v6 : Ref sig .tc := ⟨.hbm, 34, rfl⟩
abbrev main_call0_v7 : Ref sig .tc := ⟨.hbm, 35, rfl⟩
abbrev main_call0_cst_1 : Ref sig .tc := ⟨.hbm, 36, rfl⟩
abbrev main_call0_v8 : Ref sig .tc := ⟨.hbm, 37, rfl⟩
abbrev main_call0_cst_2 : Ref sig .tc := ⟨.hbm, 38, rfl⟩
abbrev main_call0_v9 : Ref sig .tc := ⟨.hbm, 39, rfl⟩
abbrev main_call0_v10 : Ref sig .tc := ⟨.hbm, 40, rfl⟩
abbrev main_call0_v11 : Ref sig .tc := ⟨.hbm, 41, rfl⟩
abbrev main_call0_v12 : Ref sig .tc := ⟨.hbm, 42, rfl⟩
abbrev main_call0_cst_3 : Ref sig .tc := ⟨.hbm, 43, rfl⟩
abbrev main_call0_v13 : Ref sig .tc := ⟨.hbm, 44, rfl⟩
abbrev main_call0_cst_4 : Ref sig .tc := ⟨.hbm, 45, rfl⟩
abbrev main_call0_call0_v0 : Ref sig .tc := ⟨.hbm, 46, rfl⟩
abbrev main_call0_call0_v1 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_cst_1 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_call1_cst : Ref sig .tc := ⟨.hbm, 63, rfl⟩
abbrev main_call1_v0 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_cst_2 : Ref sig .tc := ⟨.hbm, 77, rfl⟩
abbrev main_v35 : Ref sig .tc := ⟨.hbm, 78, rfl⟩
abbrev main_v36 : Ref sig .tc := ⟨.hbm, 79, rfl⟩
abbrev main_cst_3 : Ref sig .tc := ⟨.hbm, 80, rfl⟩
abbrev main_v37 : Ref sig .tc := ⟨.hbm, 81, rfl⟩
abbrev main_v38 : Ref sig .tc := ⟨.hbm, 82, rfl⟩
abbrev main_c_4 : Ref sig .tc := ⟨.hbm, 83, rfl⟩
abbrev main_call2_cst : Ref sig .tc := ⟨.hbm, 84, rfl⟩
abbrev main_call2_v0 : Ref sig .tc := ⟨.hbm, 85, rfl⟩
abbrev main_call2_v1 : Ref sig .tc := ⟨.hbm, 86, rfl⟩
abbrev main_call2_cst_0 : Ref sig .tc := ⟨.hbm, 87, rfl⟩
abbrev main_call2_v2 : Ref sig .tc := ⟨.hbm, 88, rfl⟩
abbrev main_call2_v3 : Ref sig .tc := ⟨.hbm, 89, rfl⟩
abbrev main_call2_v4 : Ref sig .tc := ⟨.hbm, 90, rfl⟩
abbrev main_call2_v5 : Ref sig .tc := ⟨.hbm, 91, rfl⟩
abbrev main_call2_v6 : Ref sig .tc := ⟨.hbm, 92, rfl⟩
abbrev main_call2_v7 : Ref sig .tc := ⟨.hbm, 93, rfl⟩
abbrev main_call2_cst_1 : Ref sig .tc := ⟨.hbm, 94, rfl⟩
abbrev main_call2_v8 : Ref sig .tc := ⟨.hbm, 95, rfl⟩
abbrev main_call2_cst_2 : Ref sig .tc := ⟨.hbm, 96, rfl⟩
abbrev main_call2_v9 : Ref sig .tc := ⟨.hbm, 97, rfl⟩
abbrev main_call2_v10 : Ref sig .tc := ⟨.hbm, 98, rfl⟩
abbrev main_call2_v11 : Ref sig .tc := ⟨.hbm, 99, rfl⟩
abbrev main_call2_v12 : Ref sig .tc := ⟨.hbm, 100, rfl⟩
abbrev main_call2_cst_3 : Ref sig .tc := ⟨.hbm, 101, rfl⟩
abbrev main_call2_v13 : Ref sig .tc := ⟨.hbm, 102, rfl⟩
abbrev main_call2_cst_4 : Ref sig .tc := ⟨.hbm, 103, rfl⟩
abbrev main_call2_call0_v0 : Ref sig .tc := ⟨.hbm, 104, rfl⟩
abbrev main_call2_call0_v1 : Ref sig .tc := ⟨.hbm, 105, rfl⟩
abbrev main_v39 : Ref sig .tc := ⟨.hbm, 106, rfl⟩
abbrev main_v40 : Ref sig .tc := ⟨.hbm, 107, rfl⟩
abbrev main_v41 : Ref sig .tc := ⟨.hbm, 108, rfl⟩
abbrev main_cst_5 : Ref sig .tc := ⟨.hbm, 109, rfl⟩
abbrev main_v42 : Ref sig .tc := ⟨.hbm, 110, rfl⟩
abbrev main_v43 : Ref sig .tc := ⟨.hbm, 111, rfl⟩
abbrev main_v44 : Ref sig .tc := ⟨.hbm, 112, rfl⟩
abbrev main_v45 : Ref sig .tc := ⟨.hbm, 113, rfl⟩
abbrev main_v46 : Ref sig .tc := ⟨.hbm, 114, rfl⟩
abbrev main_v47 : Ref sig .tc := ⟨.hbm, 115, rfl⟩
abbrev main_v48 : Ref sig .tc := ⟨.hbm, 116, rfl⟩
abbrev main_v49 : Ref sig .tc := ⟨.hbm, 117, rfl⟩
abbrev main_v50 : Ref sig .tc := ⟨.hbm, 118, rfl⟩
abbrev main_v51 : Ref sig .tc := ⟨.hbm, 119, rfl⟩
abbrev main_v52 : Ref sig .tc := ⟨.hbm, 120, rfl⟩
abbrev main_call3_cst : Ref sig .tc := ⟨.hbm, 121, rfl⟩
abbrev main_call3_v0 : Ref sig .tc := ⟨.hbm, 122, rfl⟩
abbrev main_v53 : Ref sig .tc := ⟨.hbm, 123, rfl⟩
abbrev main_v54 : Ref sig .tc := ⟨.hbm, 124, rfl⟩
abbrev main_v55 : Ref sig .tc := ⟨.hbm, 125, rfl⟩
abbrev main_v56 : Ref sig .tc := ⟨.hbm, 126, rfl⟩
abbrev main_v57 : Ref sig .tc := ⟨.hbm, 127, rfl⟩
abbrev main_v58 : Ref sig .tc := ⟨.hbm, 128, rfl⟩
abbrev main_v59 : Ref sig .tc := ⟨.hbm, 129, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 1 → Memref sig .tc .vmem S128x64x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S32x3_S3x32_1_0 : S32x3.Transposes [1, 0] S3x32
  bcast_S32_S1x32_1 : S32.BroadcastsInDim S1x32 (![1] : Fin 1 → Fin S1x32.rank)
  bcast_S1x32_S128x32_0_1 : S1x32.BroadcastsInDim S128x32 (![0, 1] : Fin 2 → Fin S128x32.rank)
  reducesTo_S128x32_S128_d1 : S128x32.ReducesTo [1] S128
  h_S_ : 0 < S_.numel
  bcast_S128_S128x1_0 : S128.BroadcastsInDim S128x1 (![0] : Fin 1 → Fin S128x1.rank)
  bcast_S_S128x1 : S_.BroadcastsInDim S128x1 (![] : Fin 0 → Fin S128x1.rank)
  bcast_S128x1_S128x32_0_1 : S128x1.BroadcastsInDim S128x32 (![0, 1] : Fin 2 → Fin S128x32.rank)
  bcast_S_S128x32 : S_.BroadcastsInDim S128x32 (![] : Fin 0 → Fin S128x32.rank)
  transposes_S4096x32_S32x4096_1_0 : S4096x32.Transposes [1, 0] S32x4096
  bcast_S4096_S1x4096_1 : S4096.BroadcastsInDim S1x4096 (![1] : Fin 1 → Fin S1x4096.rank)
  bcast_S1x4096_S128x4096_0_1 : S1x4096.BroadcastsInDim S128x4096 (![0, 1] : Fin 2 → Fin S128x4096.rank)
  shapeCasts_S128x4096_S128x64x64 : S128x4096.ShapeCasts S128x64x64
  transposes_S64x32_S32x64_1_0 : S64x32.Transposes [1, 0] S32x64
  bcast_S64_S1x64_1 : S64.BroadcastsInDim S1x64 (![1] : Fin 1 → Fin S1x64.rank)
  bcast_S1x64_S128x64_0_1 : S1x64.BroadcastsInDim S128x64 (![0, 1] : Fin 2 → Fin S128x64.rank)
  inb_S128x64x64_S128x64x64_0_0_0 : ∀ a, (![0, 0, 0] : Fin 3 → Nat) a + S128x64x64.size a ≤ S128x64x64.size a
  h_S128x64x64 : 0 < S128x64x64.numel
  shapeCasts_S128x64x64_S128x64x64 : S128x64x64.ShapeCasts S128x64x64
  bitsLt_bf16_f32 : FTy.bits .bf16 < FTy.bits .f32
  inb_S128x64x128_S128x64x128_0_0_0 : ∀ a, (![0, 0, 0] : Fin 3 → Nat) a + S128x64x128.size a ≤ S128x64x128.size a
  h_S128x64x128 : 0 < S128x64x128.numel
  inb_S128x64_S128x64_0_0 : ∀ a, (![0, 0] : Fin 2 → Nat) a + S128x64.size a ≤ S128x64.size a
  h_S128x64 : 0 < S128x64.numel
  shapeCasts_S128x64_S128x64 : S128x64.ShapeCasts S128x64
  shapeCasts_S128x64_S128x64x1 : S128x64.ShapeCasts S128x64x1
  broadcasts_S128x64x1_S128x64x128 : S128x64x1.Broadcasts S128x64x128
  dot_S128x3_S3x32_S128x32_1_0_0_1_n_n_wf : DotDims.WF S128x3 S3x32 S128x32 [1] [0] [0] [1] [] []
  dot_S128x32_S32x4096_S128x4096_1_0_0_1_n_n_wf : DotDims.WF S128x32 S32x4096 S128x4096 [1] [0] [0] [1] [] []
  dot_S128x32_S32x64_S128x64_1_0_0_1_n_n_wf : DotDims.WF S128x32 S32x64 S128x64 [1] [0] [0] [1] [] []
  dot_S128x64x64_S128x64x128_S128x64x128_2_1_1_2_0_0_wf : DotDims.WF S128x64x64 S128x64x128 S128x64x128 [2] [1] [1] [2] [0] [0]
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S128x64x64.size a ≤ S128x64x64.size a
  hwx0_0 : ∀ i : grid0.Coords, EltTy.bits .f32 = 32 ∨ (Rect.block (s := S128x64x64) S128x64x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x64x128.size a ≤ S128x64x4096.size a
  hwx0_2 : ∀ i : grid0.Coords, EltTy.bits .f32 = 32 ∨ (Rect.block (s := S128x64x4096) S128x64x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x64x128.size a ≤ S128x64x4096.size a
  hwx0_3 : ∀ i : grid0.Coords, EltTy.bits .f32 = 32 ∨ (Rect.block (s := S128x64x4096) S128x64x128.size (cc0_transform_3 i) (hinb0_3 i)).WholeWords (EltTy.packing .f32)

variable [Facts₀]

def dot_S128x3_S3x32_S128x32_1_0_0_1_n_n : DotDims S128x3 S3x32 S128x32 where
  lhsContracting := [1]
  rhsContracting := [0]
  lhsNonContracting := [0]
  rhsNonContracting := [1]
  lhsBatch := []
  rhsBatch := []
  wf := dot_S128x3_S3x32_S128x32_1_0_0_1_n_n_wf
def dot_S128x32_S32x4096_S128x4096_1_0_0_1_n_n : DotDims S128x32 S32x4096 S128x4096 where
  lhsContracting := [1]
  rhsContracting := [0]
  lhsNonContracting := [0]
  rhsNonContracting := [1]
  lhsBatch := []
  rhsBatch := []
  wf := dot_S128x32_S32x4096_S128x4096_1_0_0_1_n_n_wf
def dot_S128x32_S32x64_S128x64_1_0_0_1_n_n : DotDims S128x32 S32x64 S128x64 where
  lhsContracting := [1]
  rhsContracting := [0]
  lhsNonContracting := [0]
  rhsNonContracting := [1]
  lhsBatch := []
  rhsBatch := []
  wf := dot_S128x32_S32x64_S128x64_1_0_0_1_n_n_wf
def dot_S128x64x64_S128x64x128_S128x64x128_2_1_1_2_0_0 : DotDims S128x64x64 S128x64x128 S128x64x128 where
  lhsContracting := [2]
  rhsContracting := [1]
  lhsNonContracting := [1]
  rhsNonContracting := [2]
  lhsBatch := [0]
  rhsBatch := [0]
  wf := dot_S128x64x64_S128x64x128_S128x64x128_2_1_1_2_0_0_wf

abbrev win0_0 : Pipeline.Window sig grid0 :=
  Pipeline.Window.ofSpec (Memref.whole main_v29) S128x64x64.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v58) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S128x64x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v59) S128x64x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S128x64x4096 : Shape := ⟨3, ![128, 64, 4096]⟩
abbrev S128x3 : Shape := ⟨2, ![128, 3]⟩
abbrev S32x3 : Shape := ⟨2, ![32, 3]⟩
abbrev S32 : Shape := ⟨1, ![32]⟩
abbrev S4096x32 : Shape := ⟨2, ![4096, 32]⟩
abbrev S4096 : Shape := ⟨1, ![4096]⟩
abbrev S64x32 : Shape := ⟨2, ![64, 32]⟩
abbrev S64 : Shape := ⟨1, ![64]⟩
abbrev S3x32 : Shape := ⟨2, ![3, 32]⟩
abbrev S128x32 : Shape := ⟨2, ![128, 32]⟩
abbrev S1x32 : Shape := ⟨2, ![1, 32]⟩
abbrev S_ : Shape := ⟨0, ![]⟩
abbrev S128 : Shape := ⟨1, ![128]⟩
abbrev S128x1 : Shape := ⟨2, ![128, 1]⟩
abbrev S32x4096 : Shape := ⟨2, ![32, 4096]⟩
abbrev S128x4096 : Shape := ⟨2, ![128, 4096]⟩
abbrev S1x4096 : Shape := ⟨2, ![1, 4096]⟩
abbrev S128x64x64 : Shape := ⟨3, ![128, 64, 64]⟩
abbrev S32x64 : Shape := ⟨2, ![32, 64]⟩
abbrev S128x64 : Shape := ⟨2, ![128, 64]⟩
abbrev S1x64 : Shape := ⟨2, ![1, 64]⟩
abbrev S128x64x1 : Shape := ⟨3, ![128, 64, 1]⟩

abbrev nBuf : Space → Nat
  | .hbm => 133
  | .vmem => 0
  | .smem => 0
  | _ => 0

abbrev hbmTy0_0 (i : Nat) : BufTy := match i % 128 with
  | 0 => ⟨S128x64x4096, .f32⟩
  | 1 => ⟨S128x3, .f32⟩
  | 2 => ⟨S32x3, .f32⟩
  | 3 => ⟨S32, .f32⟩
  | 4 => ⟨S32, .f32⟩
  | 5 => ⟨S32, .f32⟩
  | 6 => ⟨S4096x32, .f32⟩
  | 7 => ⟨S4096, .f32⟩
  | 8 => ⟨S32x3, .f32⟩
  | 9 => ⟨S32, .f32⟩
  | 10 => ⟨S32, .f32⟩
  | 11 => ⟨S32, .f32⟩
  | 12 => ⟨S64x32, .f32⟩
  | 13 => ⟨S64, .f32⟩
  | 14 => ⟨S3x32, .f32⟩
  | 15 => ⟨S128x32, .f32⟩
  | 16 => ⟨S1x32, .f32⟩
  | 17 => ⟨S128x32, .f32⟩
  | 18 => ⟨S128x32, .f32⟩
  | 19 => ⟨S_, .f32⟩
  | 20 => ⟨S128, .f32⟩
  | 21 => ⟨S128x1, .f32⟩
  | 22 => ⟨S_, .f32⟩
  | 23 => ⟨S128x1, .f32⟩
  | 24 => ⟨S128x1, .f32⟩
  | 25 => ⟨S_, .i32⟩
  | 26 => ⟨S_, .f32⟩
  | 27 => ⟨S128, .f32⟩
  | 28 => ⟨S128x1, .f32⟩
  | 29 => ⟨S_, .f32⟩
  | 30 => ⟨S128x1, .f32⟩
  | 31 => ⟨S128x1, .f32⟩
  | 32 => ⟨S128x32, .f32⟩
  | 33 => ⟨S128x32, .f32⟩
  | 34 => ⟨S128x32, .f32⟩
  | 35 => ⟨S_, .f32⟩
  | 36 => ⟨S_, .f32⟩
  | 37 => ⟨S_, .f32⟩
  | 38 => ⟨S_, .f32⟩
  | 39 => ⟨S128, .f32⟩
  | 40 => ⟨S128x1, .f32⟩
  | 41 => ⟨S128x1, .f32⟩
  | 42 => ⟨S128x1, .f32⟩
  | 43 => ⟨S_, .f32⟩
  | 44 => ⟨S_, .i1⟩
  | 45 => ⟨S_, .f32⟩
  | 46 => ⟨S_, .f32⟩
  | 47 => ⟨S128x1, .f32⟩
  | 48 => ⟨S128x1, .f32⟩
  | 49 => ⟨S128x32, .f32⟩
  | 50 => ⟨S128x32, .f32⟩
  | 51 => ⟨S_, .f32⟩
  | 52 => ⟨S128x1, .f32⟩
  | 53 => ⟨S128x1, .f32⟩
  | 54 => ⟨S128x1, .f32⟩
  | 55 => ⟨S128x32, .f32⟩
  | 56 => ⟨S128x32, .f32⟩
  | 57 => ⟨S1x32, .f32⟩
  | 58 => ⟨S128x32, .f32⟩
  | 59 => ⟨S128x32, .f32⟩
  | 60 => ⟨S1x32, .f32⟩
  | 61 => ⟨S128x32, .f32⟩
  | 62 => ⟨S128x32, .f32⟩
  | 63 => ⟨S_, .f32⟩
  | 64 => ⟨S128x32, .f32⟩
  | 65 => ⟨S128x32, .f32⟩
  | 66 => ⟨S32x4096, .f32⟩
  | 67 => ⟨S128x4096, .f32⟩
  | 68 => ⟨S1x4096, .f32⟩
  | 69 => ⟨S128x4096, .f32⟩
  | 70 => ⟨S128x4096, .f32⟩
  | 71 => ⟨S128x64x64, .f32⟩
  | 72 => ⟨S3x32, .f32⟩
  | 73 => ⟨S128x32, .f32⟩
  | 74 => ⟨S1x32, .f32⟩
  | 75 => ⟨S128x32, .f32⟩
  | 76 => ⟨S128x32, .f32⟩
  | 77 => ⟨S_, .f32⟩
  | 78 => ⟨S128, .f32⟩
  | 79 => ⟨S128x1, .f32⟩
  | 80 => ⟨S_, .f32⟩
  | 81 => ⟨S128x1, .f32⟩
  | 82 => ⟨S128x1, .f32⟩
  | 83 => ⟨S_, .i32⟩
  | 84 => ⟨S_, .f32⟩
  | 85 => ⟨S128, .f32⟩
  | 86 => ⟨S128x1, .f32⟩
  | 87 => ⟨S_, .f32⟩
  | 88 => ⟨S128x1, .f32⟩
  | 89 => ⟨S128x1, .f32⟩
  | 90 => ⟨S128x32, .f32⟩
  | 91 => ⟨S128x32, .f32⟩
  | 92 => ⟨S128x32, .f32⟩
  | 93 => ⟨S_, .f32⟩
  | 94 => ⟨S_, .f32⟩
  | 95 => ⟨S_, .f32⟩
  | 96 => ⟨S_, .f32⟩
  | 97 => ⟨S128, .f32⟩
  | 98 => ⟨S128x1, .f32⟩
  | 99 => ⟨S128x1, .f32⟩
  | 100 => ⟨S128x1, .f32⟩
  | 101 => ⟨S_, .f32⟩
  | 102 => ⟨S_, .i1⟩
  | 103 => ⟨S_, .f32⟩
  | 104 => ⟨S_, .f32⟩
  | 105 => ⟨S128x1, .f32⟩
  | 106 => ⟨S128x1, .f32⟩
  | 107 => ⟨S128x32, .f32⟩
  | 108 => ⟨S128x32, .f32⟩
  | 109 => ⟨S_, .f32⟩
  | 110 => ⟨S128x1, .f32⟩
  | 111 => ⟨S128x1, .f32⟩
  | 112 => ⟨S128x1, .f32⟩
  | 113 => ⟨S128x32, .f32⟩
  | 114 => ⟨S128x32, .f32⟩
  | 115 => ⟨S1x32, .f32⟩
  | 116 => ⟨S128x32, .f32⟩
  | 117 => ⟨S128x32, .f32⟩
  | 118 => ⟨S1x32, .f32⟩
  | 119 => ⟨S128x32, .f32⟩
  | 120 => ⟨S128x32, .f32⟩
  | 121 => ⟨S_, .f32⟩
  | 122 => ⟨S128x32, .f32⟩
  | 123 => ⟨S128x32, .f32⟩
  | 124 => ⟨S32x64, .f32⟩
  | 125 => ⟨S128x64, .f32⟩
  | 126 => ⟨S1x64, .f32⟩
  | 127 => ⟨S128x64, .f32⟩
  | _ => ⟨S128x64x4096, .f32⟩

abbrev hbmTy0_1 (i : Nat) : BufTy := match i % 128 with
  | 0 => ⟨S128x64, .f32⟩
  | 1 => ⟨S128x64x4096, .f32⟩
  | 2 => ⟨S128x64x1, .f32⟩
  | 3 => ⟨S128x64x4096, .f32⟩
  | 4 => ⟨S128x64x4096, .f32⟩
  | _ => ⟨S128x64x4096, .f32⟩

abbrev hbmTy (i : Nat) : BufTy := match i / 128 with
  | 0 => hbmTy0_0 i
  | 1 => hbmTy0_1 i
  | _ => ⟨S128x64x4096, .f32⟩

abbrev bufTy : (tb : Table) → Fin (tcTables nBuf tb) → BufTy
  | .hbm, ⟨i, _⟩ => hbmTy i
  | _, _ => ⟨S128x64x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst : Ref sig .tc := ⟨.hbm, 19, rfl⟩
abbrev main_v5 : Ref sig .tc := ⟨.hbm, 20, rfl⟩
abbrev main_v6 : Ref sig .tc := ⟨.hbm, 21, rfl⟩
abbrev main_cst_0 : Ref sig .tc := ⟨.hbm, 22, rfl⟩
abbrev main_v7 : Ref sig .tc := ⟨.hbm, 23, rfl⟩
abbrev main_v8 : Ref sig .tc := ⟨.hbm, 24, rfl⟩
abbrev main_c : Ref sig .tc := ⟨.hbm, 25, rfl⟩
abbrev main_call0_cst : Ref sig .tc := ⟨.hbm, 26, rfl⟩
abbrev main_call0_v0 : Ref sig .tc := ⟨.hbm, 27, rfl⟩
abbrev main_call0_v1 : Ref sig .tc := ⟨.hbm, 28, rfl⟩
abbrev main_call0_cst_0 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_v6 : Ref sig .tc := ⟨.hbm, 34, rfl⟩
abbrev main_call0_v7 : Ref sig .tc := ⟨.hbm, 35, rfl⟩
abbrev main_call0_cst_1 : Ref sig .tc := ⟨.hbm, 36, rfl⟩
abbrev main_call0_v8 : Ref sig .tc := ⟨.hbm, 37, rfl⟩
abbrev main_call0_cst_2 : Ref sig .tc := ⟨.hbm, 38, rfl⟩
abbrev main_call0_v9 : Ref sig .tc := ⟨.hbm, 39, rfl⟩
abbrev main_call0_v10 : Ref sig .tc := ⟨.hbm, 40, rfl⟩
abbrev main_call0_v11 : Ref sig .tc := ⟨.hbm, 41, rfl⟩
abbrev main_call0_v12 : Ref sig .tc := ⟨.hbm, 42, rfl⟩
abbrev main_call0_cst_3 : Ref sig .tc := ⟨.hbm, 43, rfl⟩
abbrev main_call0_v13 : Ref sig .tc := ⟨.hbm, 44, rfl⟩
abbrev main_call0_cst_4 : Ref sig .tc := ⟨.hbm, 45, rfl⟩
abbrev main_call0_call0_v0 : Ref sig .tc := ⟨.hbm, 46, rfl⟩
abbrev main_call0_call0_v1 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_cst_1 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_call1_cst : Ref sig .tc := ⟨.hbm, 63, rfl⟩
abbrev main_call1_v0 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_cst_2 : Ref sig .tc := ⟨.hbm, 77, rfl⟩
abbrev main_v35 : Ref sig .tc := ⟨.hbm, 78, rfl⟩
abbrev main_v36 : Ref sig .tc := ⟨.hbm, 79, rfl⟩
abbrev main_cst_3 : Ref sig .tc := ⟨.hbm, 80, rfl⟩
abbrev main_v37 : Ref sig .tc := ⟨.hbm, 81, rfl⟩
abbrev main_v38 : Ref sig .tc := ⟨.hbm, 82, rfl⟩
abbrev main_c_4 : Ref sig .tc := ⟨.hbm, 83, rfl⟩
abbrev main_call2_cst : Ref sig .tc := ⟨.hbm, 84, rfl⟩
abbrev main_call2_v0 : Ref sig .tc := ⟨.hbm, 85, rfl⟩
abbrev main_call2_v1 : Ref sig .tc := ⟨.hbm, 86, rfl⟩
abbrev main_call2_cst_0 : Ref sig .tc := ⟨.hbm, 87, rfl⟩
abbrev main_call2_v2 : Ref sig .tc := ⟨.hbm, 88, rfl⟩
abbrev main_call2_v3 : Ref sig .tc := ⟨.hbm, 89, rfl⟩
abbrev main_call2_v4 : Ref sig .tc := ⟨.hbm, 90, rfl⟩
abbrev main_call2_v5 : Ref sig .tc := ⟨.hbm, 91, rfl⟩
abbrev main_call2_v6 : Ref sig .tc := ⟨.hbm, 92, rfl⟩
abbrev main_call2_v7 : Ref sig .tc := ⟨.hbm, 93, rfl⟩
abbrev main_call2_cst_1 : Ref sig .tc := ⟨.hbm, 94, rfl⟩
abbrev main_call2_v8 : Ref sig .tc := ⟨.hbm, 95, rfl⟩
abbrev main_call2_cst_2 : Ref sig .tc := ⟨.hbm, 96, rfl⟩
abbrev main_call2_v9 : Ref sig .tc := ⟨.hbm, 97, rfl⟩
abbrev main_call2_v10 : Ref sig .tc := ⟨.hbm, 98, rfl⟩
abbrev main_call2_v11 : Ref sig .tc := ⟨.hbm, 99, rfl⟩
abbrev main_call2_v12 : Ref sig .tc := ⟨.hbm, 100, rfl⟩
abbrev main_call2_cst_3 : Ref sig .tc := ⟨.hbm, 101, rfl⟩
abbrev main_call2_v13 : Ref sig .tc := ⟨.hbm, 102, rfl⟩
abbrev main_call2_cst_4 : Ref sig .tc := ⟨.hbm, 103, rfl⟩
abbrev main_call2_call0_v0 : Ref sig .tc := ⟨.hbm, 104, rfl⟩
abbrev main_call2_call0_v1 : Ref sig .tc := ⟨.hbm, 105, rfl⟩
abbrev main_v39 : Ref sig .tc := ⟨.hbm, 106, rfl⟩
abbrev main_v40 : Ref sig .tc := ⟨.hbm, 107, rfl⟩
abbrev main_v41 : Ref sig .tc := ⟨.hbm, 108, rfl⟩
abbrev main_cst_5 : Ref sig .tc := ⟨.hbm, 109, rfl⟩
abbrev main_v42 : Ref sig .tc := ⟨.hbm, 110, rfl⟩
abbrev main_v43 : Ref sig .tc := ⟨.hbm, 111, rfl⟩
abbrev main_v44 : Ref sig .tc := ⟨.hbm, 112, rfl⟩
abbrev main_v45 : Ref sig .tc := ⟨.hbm, 113, rfl⟩
abbrev main_v46 : Ref sig .tc := ⟨.hbm, 114, rfl⟩
abbrev main_v47 : Ref sig .tc := ⟨.hbm, 115, rfl⟩
abbrev main_v48 : Ref sig .tc := ⟨.hbm, 116, rfl⟩
abbrev main_v49 : Ref sig .tc := ⟨.hbm, 117, rfl⟩
abbrev main_v50 : Ref sig .tc := ⟨.hbm, 118, rfl⟩
abbrev main_v51 : Ref sig .tc := ⟨.hbm, 119, rfl⟩
abbrev main_v52 : Ref sig .tc := ⟨.hbm, 120, rfl⟩
abbrev main_call3_cst : Ref sig .tc := ⟨.hbm, 121, rfl⟩
abbrev main_call3_v0 : Ref sig .tc := ⟨.hbm, 122, rfl⟩
abbrev main_v53 : Ref sig .tc := ⟨.hbm, 123, rfl⟩
abbrev main_v54 : Ref sig .tc := ⟨.hbm, 124, rfl⟩
abbrev main_v55 : Ref sig .tc := ⟨.hbm, 125, rfl⟩
abbrev main_v56 : Ref sig .tc := ⟨.hbm, 126, rfl⟩
abbrev main_v57 : Ref sig .tc := ⟨.hbm, 127, rfl⟩
abbrev main_v58 : Ref sig .tc := ⟨.hbm, 128, rfl⟩
abbrev main_v59 : Ref sig .tc := ⟨.hbm, 129, rfl⟩
abbrev main_v60 : Ref sig .tc := ⟨.hbm, 130, rfl⟩
abbrev main_v61 : Ref sig .tc := ⟨.hbm, 131, rfl⟩
abbrev main_v62 : Ref sig .tc := ⟨.hbm, 132, rfl⟩

abbrev nD : Nat := 1
abbrev τ : Topo := Topo.v7x

variable {F : FTy → Type} [FloatOps F]

class Facts₀ : Prop where
  transposes_S32x3_S3x32_1_0 : S32x3.Transposes [1, 0] S3x32
  bcast_S32_S1x32_1 : S32.BroadcastsInDim S1x32 (![1] : Fin 1 → Fin S1x32.rank)
  bcast_S1x32_S128x32_0_1 : S1x32.BroadcastsInDim S128x32 (![0, 1] : Fin 2 → Fin S128x32.rank)
  reducesTo_S128x32_S128_d1 : S128x32.ReducesTo [1] S128
  h_S_ : 0 < S_.numel
  bcast_S128_S128x1_0 : S128.BroadcastsInDim S128x1 (![0] : Fin 1 → Fin S128x1.rank)
  bcast_S_S128x1 : S_.BroadcastsInDim S128x1 (![] : Fin 0 → Fin S128x1.rank)
  bcast_S128x1_S128x32_0_1 : S128x1.BroadcastsInDim S128x32 (![0, 1] : Fin 2 → Fin S128x32.rank)
  bcast_S_S128x32 : S_.BroadcastsInDim S128x32 (![] : Fin 0 → Fin S128x32.rank)
  transposes_S4096x32_S32x4096_1_0 : S4096x32.Transposes [1, 0] S32x4096
  bcast_S4096_S1x4096_1 : S4096.BroadcastsInDim S1x4096 (![1] : Fin 1 → Fin S1x4096.rank)
  bcast_S1x4096_S128x4096_0_1 : S1x4096.BroadcastsInDim S128x4096 (![0, 1] : Fin 2 → Fin S128x4096.rank)
  shapeCasts_S128x4096_S128x64x64 : S128x4096.ShapeCasts S128x64x64
  transposes_S64x32_S32x64_1_0 : S64x32.Transposes [1, 0] S32x64
  bcast_S64_S1x64_1 : S64.BroadcastsInDim S1x64 (![1] : Fin 1 → Fin S1x64.rank)
  bcast_S1x64_S128x64_0_1 : S1x64.BroadcastsInDim S128x64 (![0, 1] : Fin 2 → Fin S128x64.rank)
  bcast_S128x64_S128x64x1_0_1 : S128x64.BroadcastsInDim S128x64x1 (![0, 1] : Fin 2 → Fin S128x64x1.rank)
  bcast_S128x64x1_S128x64x4096_0_1_2 : S128x64x1.BroadcastsInDim S128x64x4096 (![0, 1, 2] : Fin 3 → Fin S128x64x4096.rank)
  dot_S128x3_S3x32_S128x32_1_0_0_1_n_n_wf : DotDims.WF S128x3 S3x32 S128x32 [1] [0] [0] [1] [] []
  dot_S128x32_S32x4096_S128x4096_1_0_0_1_n_n_wf : DotDims.WF S128x32 S32x4096 S128x4096 [1] [0] [0] [1] [] []
  dot_S128x32_S32x64_S128x64_1_0_0_1_n_n_wf : DotDims.WF S128x32 S32x64 S128x64 [1] [0] [0] [1] [] []
  dot_S128x64x64_S128x64x4096_S128x64x4096_2_1_1_2_0_0_wf : DotDims.WF S128x64x64 S128x64x4096 S128x64x4096 [2] [1] [1] [2] [0] [0]

variable [Facts₀]

def dot_S128x3_S3x32_S128x32_1_0_0_1_n_n : DotDims S128x3 S3x32 S128x32 where
  lhsContracting := [1]
  rhsContracting := [0]
  lhsNonContracting := [0]
  rhsNonContracting := [1]
  lhsBatch := []
  rhsBatch := []
  wf := dot_S128x3_S3x32_S128x32_1_0_0_1_n_n_wf
def dot_S128x32_S32x4096_S128x4096_1_0_0_1_n_n : DotDims S128x32 S32x4096 S128x4096 where
  lhsContracting := [1]
  rhsContracting := [0]
  lhsNonContracting := [0]
  rhsNonContracting := [1]
  lhsBatch := []
  rhsBatch := []
  wf := dot_S128x32_S32x4096_S128x4096_1_0_0_1_n_n_wf
def dot_S128x32_S32x64_S128x64_1_0_0_1_n_n : DotDims S128x32 S32x64 S128x64 where
  lhsContracting := [1]
  rhsContracting := [0]
  lhsNonContracting := [0]
  rhsNonContracting := [1]
  lhsBatch := []
  rhsBatch := []
  wf := dot_S128x32_S32x64_S128x64_1_0_0_1_n_n_wf
def dot_S128x64x64_S128x64x4096_S128x64x4096_2_1_1_2_0_0 : DotDims S128x64x64 S128x64x4096 S128x64x4096 where
  lhsContracting := [2]
  rhsContracting := [1]
  lhsNonContracting := [1]
  rhsNonContracting := [2]
  lhsBatch := [0]
  rhsBatch := [0]
  wf := dot_S128x64x64_S128x64x4096_S128x64x4096_2_1_1_2_0_0_wf

class Facts : Prop extends Facts₀ where

variable [Facts]
-- ==== Proof.LibBatchedProduct.lean ====
/-
  A batched matrix product read at an index, at the ideal values.

  Dimension numbers that contract the LAST axis of a [B, M, K] left operand with the MIDDLE axis of a [B, K, N] right
  operand, batch axis 0 on both sides — `einsum('bmk,bkn->bmn')` — make the product, at the output index (b, m, n), the sum
  over k of l (b, m, k) * r (b, k, n). The statement is about the dimension numbers alone (`Batched`: the six lists), so it
  serves a kernel's `tpu.matmul` into a zero accumulator and the host's `dot_general` alike, at any extents.
-/
import Idealize.ShloMosaic.PureOps.Ideal.Laws
import Idealize.ShloMosaic.Lib.ValueIdx

noncomputable section

open scoped BigOperators

namespace Cert.Lib.BatchedProduct

open Idealize.ShloMosaic Idealize.ShloMosaic.ValueIdx

variable {B M K N : Nat}

/-- The operand and result shapes of the batched product. -/
abbrev SL (B M K : Nat) : Shape := ⟨3, ![B, M, K]⟩
abbrev SR (B K N : Nat) : Shape := ⟨3, ![B, K, N]⟩
abbrev SO (B M N : Nat) : Shape := ⟨3, ![B, M, N]⟩

/-- Dimension numbers of `bmk,bkn->bmn`: batch axis 0 on both sides, the kept axes 1 (left) and 2 (right), the
    contracted axes 2 (left) and 1 (right). -/
structure Batched (D : DotDims (SL B M K) (SR B K N) (SO B M N)) : Prop where
  lc : D.lhsContracting = [2]
  rc : D.rhsContracting = [1]
  ln : D.lhsNonContracting = [1]
  rn : D.rhsNonContracting = [2]
  lb : D.lhsBatch = [0]
  rb : D.rhsBatch = [0]

variable {D : DotDims (SL B M K) (SR B K N) (SO B M N)}

/-- Two readings of an output index at equal axis numbers agree. -/
private theorem out_coord (j : (SO B M N).Idx) (p q : Nat) (hp : p < 3) (hq : q < 3) (e : p = q) :
    (j ⟨p, hp⟩).val = (j ⟨q, hq⟩).val := by subst e; rfl

/-- The left operand's index on the batch axis is the output's batch coordinate. -/
theorem lhs_batch (h : Batched D) (j : (SO B M N).Idx) (k : D.contr.Idx) : (D.lhsIdx j k 0).val = (j 0).val := by
  have hb : (0 : Fin (SL B M K).rank) ∈ D.lhsBatch := by rw [h.lb]; exact List.mem_singleton.mpr rfl
  unfold DotDims.lhsIdx
  rw [dif_pos hb]
  simp only [Fin.val_cast]
  exact out_coord j _ _ _ _ (by simp [h.lb])

/-- On the kept axis it is the output's row coordinate. -/
theorem lhs_row (h : Batched D) (j : (SO B M N).Idx) (k : D.contr.Idx) : (D.lhsIdx j k 1).val = (j 1).val := by
  have hb : (1 : Fin (SL B M K).rank) ∉ D.lhsBatch := by
    rw [h.lb]; show (1 : Fin 3) ∉ ([0] : List (Fin 3)); decide
  have hn : (1 : Fin (SL B M K).rank) ∈ D.lhsNonContracting := by rw [h.ln]; exact List.mem_singleton.mpr rfl
  unfold DotDims.lhsIdx
  rw [dif_neg hb, dif_pos hn]
  simp only [Fin.val_cast]
  exact out_coord j _ _ _ _ (by simp [h.lb, h.ln])

/-- The right operand's index on the batch axis is the output's batch coordinate. -/
theorem rhs_batch (h : Batched D) (j : (SO B M N).Idx) (k : D.contr.Idx) : (D.rhsIdx j k 0).val = (j 0).val := by
  have hb : (0 : Fin (SR B K N).rank) ∈ D.rhsBatch := by rw [h.rb]; exact List.mem_singleton.mpr rfl
  unfold DotDims.rhsIdx
  rw [dif_pos hb]
  simp only [Fin.val_cast]
  exact out_coord j _ _ _ _ (by simp [h.rb])

/-- On the kept axis it is the output's column coordinate. -/
theorem rhs_col (h : Batched D) (j : (SO B M N).Idx) (k : D.contr.Idx) : (D.rhsIdx j k 2).val = (j 2).val := by
  have hb : (2 : Fin (SR B K N).rank) ∉ D.rhsBatch := by
    rw [h.rb]; show (2 : Fin 3) ∉ ([0] : List (Fin 3)); decide
  have hn : (2 : Fin (SR B K N).rank) ∈ D.rhsNonContracting := by rw [h.rn]; exact List.mem_singleton.mpr rfl
  unfold DotDims.rhsIdx
  rw [dif_neg hb, dif_pos hn]
  simp only [Fin.val_cast]
  exact out_coord j _ _ _ _ (by simp [h.lb, h.ln, h.rn])

/-- One axis is contracted. -/
theorem contr_rank (h : Batched D) : D.contr.rank = 1 := by rw [D.rank_contr, h.lc]; rfl

/-- Its extent is K. -/
theorem contr_size (h : Batched D) : D.contr.size ⟨0, by rw [contr_rank h]; exact Nat.one_pos⟩ = K := by
  have hp : 0 < D.lhsContracting.length := by rw [h.lc]; exact Nat.one_pos
  rw [D.size_contr 0 hp]
  have e : D.lhsContracting[0] = (2 : Fin (SL B M K).rank) := by simp [h.lc]
  rw [e]; rfl

/-- THE PRODUCT AT AN INDEX: the sum over the contraction index of the operands' products is the sum over k : Fin K of
    l (b, m, k) * r (b, k, n). -/
theorem sum_contr (h : Batched D) (l : (SL B M K).Idx → EReal) (r : (SR B K N).Idx → EReal) (j : (SO B M N).Idx) :
    ∑ k : D.contr.Idx, l (D.lhsIdx j k) * r (D.rhsIdx j k) = ∑ i : Fin K, l (ix3 (j 0) (j 1) i) * r (ix3 (j 0) i (j 2)) := by
  rw [← Equiv.sum_comp (contrEquiv1 D K (contr_rank h) (contr_size h)).symm]
  refine Finset.sum_congr rfl fun i _ => ?_
  have el : D.lhsIdx j ((contrEquiv1 D K (contr_rank h) (contr_size h)).symm i) = ix3 (j 0) (j 1) i := by
    funext a; apply Fin.ext
    match a with
    | ⟨0, _⟩ => exact lhs_batch h j _
    | ⟨1, _⟩ => exact lhs_row h j _
    | ⟨2, _⟩ => exact (D.lhsIdx_val_of_single h.lc j _).trans (contrEquiv1_symm_val D K (contr_rank h) (contr_size h) i)
  have er : D.rhsIdx j ((contrEquiv1 D K (contr_rank h) (contr_size h)).symm i) = ix3 (j 0) i (j 2) := by
    funext a; apply Fin.ext
    match a with
    | ⟨0, _⟩ => exact rhs_batch h j _
    | ⟨1, _⟩ => exact (D.rhsIdx_val_of_single h.rc j _).trans (contrEquiv1_symm_val D K (contr_rank h) (contr_size h) i)
    | ⟨2, _⟩ => exact rhs_col h j _
  exact congrArg₂ (· * ·) (congrArg l el) (congrArg r er)

/-- A kernel's `tpu.matmul` with such dimension numbers into the zero constant, read at an index. -/
theorem matmul_zero_apply {φ₁ φ₂ : FTy} (h : Batched D) (prec : Option ContractPrecision) (l : FVec Ideal (SL B M K) φ₁)
    (r : FVec Ideal (SR B K N) φ₂) (j : (SO B M N).Idx) :
    FloatOps.matmul D prec l r (constant (SO B M N) .f32 0x00000000#32) j
      = ∑ i : Fin K, l (ix3 (j 0) (j 1) i) * r (ix3 (j 0) i (j 2)) :=
  (Ideal.matmul_constant_zero_apply D prec l r j).trans (sum_contr h l r j)

/-- The host's `dot_general` with such dimension numbers, read at an index. -/
theorem dotGeneral_apply {φ₁ φ₂ : FTy} (h : Batched D) (prec : Option ContractPrecision) (sched : HostSchedule)
    (l : FVec Ideal (SL B M K) φ₁) (r : FVec Ideal (SR B K N) φ₂) (j : (SO B M N).Idx) :
    FloatOps.dotGeneral D prec sched l r j = ∑ i : Fin K, l (ix3 (j 0) (j 1) i) * r (ix3 (j 0) i (j 2)) :=
  (Ideal.dotGeneral_apply D prec sched l r j).trans (sum_contr h l r j)

end Cert.Lib.BatchedProduct

end
-- ==== Proof.KernelBody.lean ====
/-
  The kernel body's one store, read at an index, at the ideal values.

  The body loads the whole weight [128, 64, 64], the whole bias [128, 64] and one time block of the signal [128, 64, 128],
  narrows weight and signal to bf16 (the identity on the extended reals), multiplies them sample by sample into a zero
  accumulator, and adds the bias broadcast along time. So at (b, o, s) of the block it stores
      (∑ i : Fin 64, w (b, o, i) * x (b, i, s)) + bias (b, o).
-/
import proofs.«180488_j83623013253335_1_alg».proof.Proof.Gen.KernelIdeal.Skeleton
import proofs.«180488_j83623013253335_1_alg».proof.Proof.LibBatchedProduct
import Idealize.ShloMosaic.Lib.Pipeline.Value

noncomputable section

open scoped BigOperators

namespace Cert.KernelIdeal.Body

open Cert.KernelIdeal Cert.KernelIdeal.Gen Idealize.ShloMosaic Idealize.ShloMosaic.ValueIdx Cert.Lib.BatchedProduct

/-- The kernel's dimension numbers are those of `bmk,bkn->bmn`. -/
theorem dims_batched :
    Batched (B := 128) (M := 64) (K := 64) (N := 128) dot_S128x64x64_S128x64x128_S128x64x128_2_1_1_2_0_0 :=
  ⟨rfl, rfl, rfl, rfl, rfl, rfl⟩

/-- The bias, given a unit time axis and broadcast along the block's 128 time steps, reads (b, o) at (b, o, s). -/
theorem bias_apply (v6 : S128x64.Idx → EReal) (h1 : S128x64.ShapeCasts S128x64) (h2 : S128x64.ShapeCasts S128x64x1)
    (h3 : S128x64x1.Broadcasts S128x64x128) (b : Fin 128) (o : Fin 64) (s : Fin 128) :
    broadcastTo S128x64x128 (shapeCast S128x64x1 (shapeCast S128x64 v6 h1) h2) h3 (ix3 b o s) = v6 (ix2 b o) := by
  rw [shapeCast_self]
  rw [broadcastTo_apply _ h3 (ix3 b o s) (ix3 b o (0 : Fin 1)) (fun a => by
    match a with
    | ⟨0, _⟩ => rfl
    | ⟨1, _⟩ => rfl
    | ⟨2, _⟩ => rfl)]
  exact shapeCast_apply v6 h2 (ix3 b o (0 : Fin 1)) (ix2 b o) (by
    rw [Shape.rowMajor_val_two, Shape.rowMajor_val_three]
    show b.val * 64 + o.val = (b.val * 64 + o.val) * 1 + 0
    omega)

/-- THE PAYLOAD AT AN INDEX. -/
theorem pay_apply (v0 : Vec Ideal S128x64x64 .f32) (v3 : Vec Ideal S128x64x128 .f32) (v6 : Vec Ideal S128x64 .f32)
    (b : Fin 128) (o : Fin 64) (s : Fin 128) :
    k0_pay1 (F := Ideal) v0 v3 v6 (ix3 b o s) = (∑ i : Fin 64, v0 (ix3 b o i) * v3 (ix3 b i s)) + v6 (ix2 b o) := by
  unfold k0_pay1
  rw [addf_apply, bias_apply]
  simp only [matmul]
  rw [matmul_zero_apply dims_batched, shapeCast_self]
  rfl

end Cert.KernelIdeal.Body

end
-- ==== Proof.ConvSpec.lean ====
/-
  The result both programs compute, as ONE function of three arrays: a per-sample 1×1 convolution.

  For a weight w : [128, 64, 64] (sample, output channel, input channel), a bias : [128, 64] and a signal x : [128, 64, 4096]
  (sample, input channel, time),
      out (b, o, t) = (∑ i : Fin 64, w (b, o, i) * x (b, i, t)) + bias (b, o)
  on the extended reals. Each sample b has its own 64 × 64 matrix; the time axis is only carried along, which is why the
  kernel may cut it into 32 blocks of 128 and the result does not change.
-/
import Idealize.ShloMosaic.PureOps.Ideal
import Idealize.ShloMosaic.Lib.ValueIdx

noncomputable section

open scoped BigOperators

namespace Cert.Spec

open Idealize.ShloMosaic Idealize.ShloMosaic.ValueIdx

/-- out (b, o, t) = (∑ i, w (b, o, i) * x (b, i, t)) + bias (b, o). -/
def groupedConv (w : (⟨3, ![128, 64, 64]⟩ : Shape).Idx → EReal) (bias : (⟨2, ![128, 64]⟩ : Shape).Idx → EReal)
    (x : (⟨3, ![128, 64, 4096]⟩ : Shape).Idx → EReal) : (⟨3, ![128, 64, 4096]⟩ : Shape).Idx → EReal :=
  fun j => (∑ i : Fin 64, w (ix3 (j 0) (j 1) i) * x (ix3 (j 0) i (j 2))) + bias (ix2 (j 0) (j 1))

theorem groupedConv_apply (w : (⟨3, ![128, 64, 64]⟩ : Shape).Idx → EReal) (bias : (⟨2, ![128, 64]⟩ : Shape).Idx → EReal)
    (x : (⟨3, ![128, 64, 4096]⟩ : Shape).Idx → EReal) (b : Fin 128) (o : Fin 64) (t : Fin 4096) :
    groupedConv w bias x (ix3 b o t) = (∑ i : Fin 64, w (ix3 b o i) * x (ix3 b i t)) + bias (ix2 b o) := rfl

end Cert.Spec

end
-- ==== Proof.KernelArray.lean ====
/-
  From the 32 time blocks to the whole output array, at the ideal values.

  The grid has 32 points. At point t the weight window and the bias window are the whole arrays (their index maps are
  constant 0), the signal window is time block t of x — columns t * 128 … t * 128 + 127 — and the output window is time
  block t of the result. The body's store at (b, o, s) of the block is (∑ i, w (b, o, i) * x (b, i, t * 128 + s)) + bias (b, o)
  (the payload at an index), which is the per-sample convolution `Cert.Spec.groupedConv` read at (b, o, t * 128 + s): what
  point t writes back is block t of ONE function of the arrays. The 32 blocks tile the time axis, so the array ends
  holding that function everywhere.
-/
import proofs.«180488_j83623013253335_1_alg».proof.Proof.Gen.KernelIdeal.Value
import proofs.«180488_j83623013253335_1_alg».proof.Proof.KernelBody
import proofs.«180488_j83623013253335_1_alg».proof.Proof.ConvSpec

noncomputable section

open scoped BigOperators

namespace Cert.KernelIdeal.Array

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zeros3 : (![0, 0, 0] : Fin 3 → Nat) = fun _ => 0 := funext fun a => by fin_cases a <;> rfl
theorem zeros2 : (![0, 0] : Fin 2 → Nat) = fun _ => 0 := funext fun a => by fin_cases a <;> rfl

/-- The printed index maps over the grid: weight and bias never move; signal and output sit at time block t. -/
theorem idx_facts : ∀ t : Fin cfg0.N,
    win0_0.index t (0 : Fin 3) = 0 ∧ win0_0.index t (1 : Fin 3) = 0 ∧ win0_0.index t (2 : Fin 3) = 0
    ∧ win0_1.index t (0 : Fin 2) = 0 ∧ win0_1.index t (1 : Fin 2) = 0
    ∧ win0_2.index t (0 : Fin 3) = 0 ∧ win0_2.index t (1 : Fin 3) = 0 ∧ win0_2.index t (2 : Fin 3) = t.val
    ∧ win0_3.index t (0 : Fin 3) = 0 ∧ win0_3.index t (1 : Fin 3) = 0 ∧ win0_3.index t (2 : Fin 3) = t.val :=
  (by decide +kernel : ∀ t : Fin grid0.N, _)

/-- A point is below 32. -/
theorem point_lt (t : Fin cfg0.N) : t.val < 32 := by
  have h := t.isLt
  have e : cfg0.N = 32 := N_0
  omega

/-- Time step s of block t is column t * 128 + s of the arrays. -/
def col (t : Fin cfg0.N) (s : Fin 128) : Fin 4096 := ⟨t.val * 128 + s.val, by have := point_lt t; have := s.isLt; omega⟩

/-- The weight window's block at any point is the whole weight. -/
theorem read_weight (c : Dev nD) (t : Fin cfg0.N) (y : S128x64x64.Idx) : iblk m c 0 t y = V m c main_v29 y := by
  obtain ⟨e0, e1, e2, -⟩ := idx_facts t
  have h : ((cfg0.win 0).blk t).view.emb y = y := by
    funext a; apply Fin.ext
    match a with
    | ⟨0, _⟩ => show win0_0.index t (0 : Fin 3) * 128 + 1 * (y 0).val = (y 0).val; omega
    | ⟨1, _⟩ => show win0_0.index t (1 : Fin 3) * 64 + 1 * (y 1).val = (y 1).val; omega
    | ⟨2, _⟩ => show win0_0.index t (2 : Fin 3) * 64 + 1 * (y 2).val = (y 2).val; omega
  show V m c main_v29 (((cfg0.win 0).blk t).view.emb y) = V m c main_v29 y
  rw [h]

/-- The bias window's block at any point is the whole bias. -/
theorem read_bias (c : Dev nD) (t : Fin cfg0.N) (y : S128x64.Idx) : iblk m c 1 t y = V m c main_v58 y := by
  obtain ⟨-, -, -, e0, e1, -⟩ := idx_facts t
  have h : ((cfg0.win 1).blk t).view.emb y = y := by
    funext a; apply Fin.ext
    match a with
    | ⟨0, _⟩ => show win0_1.index t (0 : Fin 2) * 128 + 1 * (y 0).val = (y 0).val; omega
    | ⟨1, _⟩ => show win0_1.index t (1 : Fin 2) * 64 + 1 * (y 1).val = (y 1).val; omega
  show V m c main_v58 (((cfg0.win 1).blk t).view.emb y) = V m c main_v58 y
  rw [h]

/-- The signal window's block at point t, at (b, i, s), is x (b, i, t * 128 + s). -/
theorem read_signal (c : Dev nD) (t : Fin cfg0.N) (b : Fin 128) (i : Fin 64) (s : Fin 128) :
    iblk m c 2 t (ix3 b i s) = V m c main_arg0 (ix3 b i (col t s)) := by
  obtain ⟨-, -, -, -, -, e0, e1, e2, -⟩ := idx_facts t
  have h : ((cfg0.win 2).blk t).view.emb (ix3 b i s) = ix3 b i (col t s) := by
    funext a; apply Fin.ext
    match a with
    | ⟨0, _⟩ => show win0_2.index t (0 : Fin 3) * 128 + 1 * b.val = b.val; omega
    | ⟨1, _⟩ => show win0_2.index t (1 : Fin 3) * 64 + 1 * i.val = i.val; omega
    | ⟨2, _⟩ => show win0_2.index t (2 : Fin 3) * 128 + 1 * s.val = t.val * 128 + s.val; omega
  show V m c main_arg0 (((cfg0.win 2).blk t).view.emb (ix3 b i s)) = _
  rw [h]

/-- The output window's block at point t puts (b, o, s) at (b, o, t * 128 + s) of the array. -/
theorem emb_out (t : Fin cfg0.N) (b : Fin 128) (o : Fin 64) (s : Fin 128) :
    ((cfg0.win 3).blk t).view.emb (ix3 b o s) = ix3 b o (col t s) := by
  obtain ⟨-, -, -, -, -, -, -, -, e0, e1, e2⟩ := idx_facts t
  funext a; apply Fin.ext
  match a with
  | ⟨0, _⟩ => show win0_3.index t (0 : Fin 3) * 128 + 1 * b.val = b.val; omega
  | ⟨1, _⟩ => show win0_3.index t (1 : Fin 3) * 64 + 1 * o.val = o.val; omega
  | ⟨2, _⟩ => show win0_3.index t (2 : Fin 3) * 128 + 1 * s.val = t.val * 128 + s.val; omega

/-- AT ONE ELEMENT: what the body stores at (b, o, s) of block t is the convolution at the array index of that element. -/
theorem point_eq (c : Dev nD) (t : Fin cfg0.N) (b : Fin 128) (o : Fin 64) (s : Fin 128) :
    k0_pay1 (F := Ideal) (iblk m c 0 t) (iblk m c 2 t) (iblk m c 1 t) (ix3 b o s)
      = Cert.Spec.groupedConv (V m c main_v29) (V m c main_v58) (V m c main_arg0) (((cfg0.win 3).blk t).view.emb (ix3 b o s)) := by
  refine (Body.pay_apply _ _ _ b o s).trans ?_
  rw [emb_out t b o s, Cert.Spec.groupedConv_apply]
  exact congrArg₂ (· + ·)
    (Finset.sum_congr rfl fun i _ => congrArg₂ (· * ·) (read_weight m c t (ix3 b o i)) (read_signal m c t b i s))
    (read_bias m c t (ix2 b o))

/-- WHAT POINT t WRITES BACK is block t of the convolution of the arrays as the region finds them. -/
theorem flushed_eq (c : Dev nD) (t : Fin cfg0.N) :
    (dats m 0 c).flushed 3 t
      = ((cfg0.win 3).blk t).view.read (Elt Ideal) (Cert.Spec.groupedConv (V m c main_v29) (V m c main_v58) (V m c main_arg0)) := by
  rw [Value.flushed3]
  unfold out0_3
  rw [View.canon_unit_zero zeros3]
  simp only [View.ld_unit_zero (S := S128x64x64) zeros3, View.ld_unit_zero (S := S128x64x128) zeros3, View.ld_unit_zero (S := S128x64) zeros2]
  funext j
  obtain ⟨b, o, s, rfl⟩ : ∃ (b : Fin 128) (o : Fin 64) (s : Fin 128), j = ix3 b o s := ⟨j 0, j 1, j 2, eq_ix3 j⟩
  exact point_eq m c t b o s

/-- An index of the array is in point t's block iff each coordinate is in the block's range on its axis. -/
theorem mem_blk (t : Fin cfg0.N) (i : S128x64x4096.Idx) :
    i ∈ ((cfg0.win 3).blk t).view.set ↔ ∀ a : Fin 3, win0_3.index t a * S128x64x128.size a ≤ (i a).val ∧ (i a).val < win0_3.index t a * S128x64x128.size a + S128x64x128.size a := by
  show i ∈ ((View.whole main_v59).slice (win0_3.rect t)).set ↔ _
  rw [View.set_slice_whole, Rect.mem_set_unit]
  exact Iff.rfl

/-- THE BLOCKS TILE THE ARRAY: column n of the time axis is in block n / 128. -/
theorem cover (i : S128x64x4096.Idx) : ∃ t : Fin cfg0.N, (cfg0.win 3).flush t = true ∧ i ∈ ((cfg0.win 3).blk t).view.set := by
  have hi0 : (i 0).val < 128 := (i 0).isLt
  have hi1 : (i 1).val < 64 := (i 1).isLt
  have hi2 : (i 2).val < 4096 := (i 2).isLt
  have hN : cfg0.N = 32 := N_0
  let t : Fin cfg0.N := ⟨(i 2).val / 128, by omega⟩
  obtain ⟨-, -, -, -, -, -, -, -, e0, e1, e2⟩ := idx_facts t
  have e2' : win0_3.index t (2 : Fin 3) = (i 2).val / 128 := e2
  refine ⟨t, flush0_3 t, ?_⟩
  rw [mem_blk]
  intro a
  match a with
  | ⟨0, _⟩ => show win0_3.index t (0 : Fin 3) * 128 ≤ (i 0).val ∧ (i 0).val < win0_3.index t (0 : Fin 3) * 128 + 128; omega
  | ⟨1, _⟩ => show win0_3.index t (1 : Fin 3) * 64 ≤ (i 1).val ∧ (i 1).val < win0_3.index t (1 : Fin 3) * 64 + 64; omega
  | ⟨2, _⟩ => show win0_3.index t (2 : Fin 3) * 128 ≤ (i 2).val ∧ (i 2).val < win0_3.index t (2 : Fin 3) * 128 + 128; omega

/-- THE ARRAY after the run is the convolution of the arrays the region found. -/
theorem final (c : Dev nD) :
    (dats m 0 c).arrAt 3 cfg0.N = Cert.Spec.groupedConv (V m c main_v29) (V m c main_v58) (V m c main_arg0) :=
  (dats m 0 c).arrAt_eq_of_cover 3 _ (fun t _ => flushed_eq m c t) cover

/-- The kernel program's run: the result is the convolution of the weight and bias its host prefix computed (the
    contents of their buffers when the region is entered) with the signal as launched; the arguments end unchanged. -/
theorem run : θ_run defs (onTc (τ := τ) (main (F := Ideal))) ⟨m, fun _ => 0, ρ⟩ fun r => ∀ c : Dev nD,
      r.2.mem ((c : Thread nD τ).loc main_v59)
        = Cert.Spec.groupedConv (V m c main_v29) (V m c main_v58) (m ((c : Thread nD τ).loc main_arg0))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13) :=
  (θ_run defs _ _).mono (fun r h c => ⟨(h c).1.trans ((final m c).trans (by rw [V_main_arg0])), (h c).2⟩)
    (Value.run_blocks m ρ)

end Cert.KernelIdeal.Array

end
-- ==== Proof.ReferenceOps.lean ====
/- The reference program's host prefix as one list: the two small networks that make the per-sample weight and bias
   (Linear, LayerNorm, ReLU, Linear, each twice), 115 operations, a callee's operations at its call site. -/
import proofs.«180488_j83623013253335_1_alg».proof.Proof.Gen.ReferenceIdeal
import Idealize.ShloMosaic.Lib.StableHlo.Run

noncomputable section

namespace Cert.ReferenceIdeal.Run

open Cert.ReferenceIdeal Cert.ReferenceIdeal.Gen Idealize.ShloMosaic Idealize.ShloMosaic.TcCoe Idealize.SL.Sem

variable {F : FTy → Type} [FloatOps F]

/-- The 115 operations that make the weight and the bias, in order. -/
abbrev prefixOps : List (HloOp τ sig (Elt F)) :=
  [
    -- the weight network's first linear layer h = z * w1^T + b1, and the mean of each row of h
    StableHlo.unary main_arg2 main_v0 ((transpose S3x32 [1, 0] · transposes_S32x3_S3x32_1_0) : (⟨S32x3, .f32⟩ : BufTy).Contents (Elt F) → (⟨S3x32, .f32⟩ : BufTy).Contents (Elt F)),
    StableHlo.binary main_arg1 main_v0 main_v1 ((fun l r => Host.dotGeneral dot_S128x3_S3x32_S128x32_1_0_0_1_n_n none l r) : (⟨S128x3, .f32⟩ : BufTy).Contents (Elt F) → (⟨S3x32, .f32⟩ : BufTy).Contents (Elt F) → (⟨S128x32, .f32⟩ : BufTy).Contents (Elt F)),
    StableHlo.unary main_arg3 main_v2 (broadcastInDim S1x32 ![1] bcast_S32_S1x32_1 : (⟨S32, .f32⟩ : BufTy).Contents (Elt F) → (⟨S1x32, .f32⟩ : BufTy).Contents (Elt F)),
    StableHlo.unary main_v2 main_v3 (broadcastInDim S128x32 ![0, 1] bcast_S1x32_S128x32_0_1 : (⟨S1x32, .f32⟩ : BufTy).Contents (Elt F) → (⟨S128x32, .f32⟩ : BufTy).Contents (Elt F)),
    StableHlo.binary main_v1 main_v3 main_v4 (addf : (⟨S128x32, .f32⟩ : BufTy).Contents (Elt F) → (⟨S128x32, .f32⟩ : BufTy).Contents (Elt F) → (⟨S128x32, .f32⟩ : BufTy).Contents (Elt F)),
    StableHlo.nullary main_cst (constant S_ .f32 0x00000000#32),
    StableHlo.binary main_v4 main_cst main_v5 ((fun x v => Host.reduceAdd x v reducesTo_S128x32_S128_d1 h_S_) : (⟨S128x32, .f32⟩ : BufTy).Contents (Elt F) → (⟨S_, .f32⟩ : BufTy).Contents (Elt F) → (⟨S128, .f32⟩ : BufTy).Contents (Elt F)),
    StableHlo.unary main_v5 main_v6 (broadcastInDim S128x1 ![0] bcast_S128_S128x1_0 : (⟨S128, .f32⟩ : BufTy).Contents (Elt F) → (⟨S128x1, .f32⟩ : BufTy).Contents (Elt F)),
    StableHlo.nullary main_cst_0 (constant S_ .f32 0x42000000#32),
    StableHlo.unary main_cst_0 main_v7 (broadcastInDim S128x1 ![] bcast_S_S128x1 : (⟨S_, .f32⟩ : BufTy).Contents (Elt F) → (⟨S128x1, .f32⟩ : BufTy).Contents (Elt F)),
    StableHlo.binary main_v6 main_v7 main_v8 (Host.divf : (⟨S128x1, .f32⟩ : BufTy).Contents (Elt F) → (⟨S128x1, .f32⟩ : BufTy).Contents (Elt F) → (⟨S128x1, .f32⟩ : BufTy).Contents (Elt F)),
    StableHlo.nullary main_c (constantI S_ 32 0#32),
    -- the variance of each row of h: the mean again, the squared deviations, their sum over the row's 32 entries, the quotient, jnp's guard on the divisor
    StableHlo.TRef.nullary (.of main_call0_cst : StableHlo.TRef sig ⟨S_, .f32⟩) (constant S_ .f32 0x00000000#32),
    StableHlo.TRef.binary (.of main_v4 : StableHlo.TRef sig ⟨S128x32, .f32⟩) (.of main_call0_cst : StableHlo.TRef sig ⟨S_, .f32⟩) (.of main_call0_v0 : StableHlo.TRef sig ⟨S128, .f32⟩) (fun x v => Host.reduceAdd x v reducesTo_S128x32_S128_d1 h_S_),
    StableHlo.TRef.unary (.of main_call0_v0 : StableHlo.TRef sig ⟨S128, .f32⟩) (.of main_call0_v1 : StableHlo.TRef sig ⟨S128x1, .f32⟩) (broadcastInDim S128x1 ![0] bcast_S128_S128x1_0),
    StableHlo.TRef.nullary (.of main_call0_cst_0 : StableHlo.TRef sig ⟨S_, .f32⟩) (constant S_ .f32 0x42000000#32),
    StableHlo.TRef.unary (.of main_call0_cst_0 : StableHlo.TRef sig ⟨S_, .f32⟩) (.of main_call0_v2 : StableHlo.TRef sig ⟨S128x1, .f32⟩) (broadcastInDim S128x1 ![] bcast_S_S128x1),
    StableHlo.TRef.binary (.of main_call0_v1 : StableHlo.TRef sig ⟨S128x1, .f32⟩) (.of main_call0_v2 : StableHlo.TRef sig ⟨S128x1, .f32⟩) (.of main_call0_v3 : StableHlo.TRef sig ⟨S128x1, .f32⟩) Host.divf,
    StableHlo.TRef.unary (.of main_call0_v3 : StableHlo.TRef sig ⟨S128x1, .f32⟩) (.of main_call0_v4 : StableHlo.TRef sig ⟨S128x32, .f32⟩) (broadcastInDim S128x32 ![0, 1] bcast_S128x1_S128x32_0_1),
    StableHlo.TRef.binary (.of main_v4 : StableHlo.TRef sig ⟨S128x32, .f32⟩) (.of main_call0_v4 : StableHlo.TRef sig ⟨S128x32, .f32⟩) (.of main_call0_v5 : StableHlo.TRef sig ⟨S128x32, .f32⟩) subf,
    StableHlo.TRef.binary (.of main_call0_v5 : StableHlo.TRef sig ⟨S128x32, .f32⟩) (.of main_call0_v5 : StableHlo.TRef sig ⟨S128x32, .f32⟩) (.of main_call0_v6 : StableHlo.TRef sig ⟨S128x32, .f32⟩) mulf,
    StableHlo.TRef.unary (.of main_c : StableHlo.TRef sig ⟨S_, .i32⟩) (.of main_call0_v7 : StableHlo.TRef sig ⟨S_, .f32⟩) (sitofp .f32),
    StableHlo.TRef.nullary (.of main_call0_cst_1 : StableHlo.TRef sig ⟨S_, .f32⟩) (constant S_ .f32 0x42000000#32),
    StableHlo.TRef.binary (.of main_call0_cst_1 : StableHlo.TRef sig ⟨S_, .f32⟩) (.of main_call0_v7 : StableHlo.TRef sig ⟨S_, .f32⟩) (.of main_call0_v8 : StableHlo.TRef sig ⟨S_, .f32⟩) subf,
    StableHlo.TRef.nullary (.of main_call0_cst_2 : StableHlo.TRef sig ⟨S_, .f32⟩) (constant S_ .f32 0x00000000#32),
    StableHlo.TRef.binary (.of main_call0_v6 : StableHlo.TRef sig ⟨S128x32, .f32⟩) (.of main_call0_cst_2 : StableHlo.TRef sig ⟨S_, .f32⟩) (.of main_call0_v9 : StableHlo.TRef sig ⟨S128, .f32⟩) (fun x v => Host.reduceAdd x v reducesTo_S128x32_S128_d1 h_S_),
    StableHlo.TRef.unary (.of main_call0_v9 : StableHlo.TRef sig ⟨S128, .f32⟩) (.of main_call0_v10 : StableHlo.TRef sig ⟨S128x1, .f32⟩) (broadcastInDim S128x1 ![0] bcast_S128_S128x1_0),
    StableHlo.TRef.unary (.of main_call0_v8 : StableHlo.TRef sig ⟨S_, .f32⟩) (.of main_call0_v11 : StableHlo.TRef sig ⟨S128x1, .f32⟩) (broadcastInDim S128x1 ![] bcast_S_S128x1),
    StableHlo.TRef.binary (.of main_call0_v10 : StableHlo.TRef sig ⟨S128x1, .f32⟩) (.of main_call0_v11 : StableHlo.TRef sig ⟨S128x1, .f32⟩) (.of main_call0_v12 : StableHlo.TRef sig ⟨S128x1, .f32⟩) Host.divf,
    StableHlo.TRef.nullary (.of main_call0_cst_3 : StableHlo.TRef sig ⟨S_, .f32⟩) (constant S_ .f32 0x00000000#32),
    StableHlo.TRef.binary (.of main_call0_v8 : StableHlo.TRef sig ⟨S_, .f32⟩) (.of main_call0_cst_3 : StableHlo.TRef sig ⟨S_, .f32⟩) (.of main_call0_v13 : StableHlo.TRef sig ⟨S_, .i1⟩) (cmpf .ogt),
    StableHlo.TRef.nullary (.of main_call0_cst_4 : StableHlo.TRef sig ⟨S_, .f32⟩) (constant S_ .f32 0x7FC00000#32),
    StableHlo.TRef.unary (.of main_call0_cst_4 : StableHlo.TRef sig ⟨S_, .f32⟩) (.of main_call0_call0_v0 : StableHlo.TRef sig ⟨S_, .f32⟩) id,
    StableHlo.TRef.unary (.of main_call0_call0_v0 : StableHlo.TRef sig ⟨S_, .f32⟩) (.of main_call0_call0_v1 : StableHlo.TRef sig ⟨S128x1, .f32⟩) (broadcastInDim S128x1 ![] bcast_S_S128x1),
    StableHlo.TRef.ternary (.of main_call0_v13 : StableHlo.TRef sig ⟨S_, .i1⟩) (.of main_call0_v12 : StableHlo.TRef sig ⟨S128x1, .f32⟩) (.of main_call0_call0_v1 : StableHlo.TRef sig ⟨S128x1, .f32⟩) (.of main_v9 : StableHlo.TRef sig ⟨S128x1, .f32⟩) (fun p a b => select (broadcastInDim S128x1 ![] bcast_S_S128x1 p) a b),
    -- the layer norm (h - mean) * rsqrt (var + eps) * g + beta
    StableHlo.unary main_v8 main_v10 (broadcastInDim S128x32 ![0, 1] bcast_S128x1_S128x32_0_1 : (⟨S128x1, .f32⟩ : BufTy).Contents (Elt F) → (⟨S128x32, .f32⟩ : BufTy).Contents (Elt F)),
    StableHlo.binary main_v4 main_v10 main_v11 (subf : (⟨S128x32, .f32⟩ : BufTy).Contents (Elt F) → (⟨S128x32, .f32⟩ : BufTy).Contents (Elt F) → (⟨S128x32, .f32⟩ : BufTy).Contents (Elt F)),
    StableHlo.nullary main_cst_1 (constant S_ .f32 0x3727C5AC#32),
    StableHlo.unary main_cst_1 main_v12 (broadcastInDim S128x1 ![] bcast_S_S128x1 : (⟨S_, .f32⟩ : BufTy).Contents (Elt F) → (⟨S128x1, .f32⟩ : BufTy).Contents (Elt F)),
    StableHlo.binary main_v9 main_v12 main_v13 (addf : (⟨S128x1, .f32⟩ : BufTy).Contents (Elt F) → (⟨S128x1, .f32⟩ : BufTy).Contents (Elt F) → (⟨S128x1, .f32⟩ : BufTy).Contents (Elt F)),
    StableHlo.unary main_v13 main_v14 (Host.rsqrt : (⟨S128x1, .f32⟩ : BufTy).Contents (Elt F) → (⟨S128x1, .f32⟩ : BufTy).Contents (Elt F)),
    StableHlo.unary main_v14 main_v15 (broadcastInDim S128x32 ![0, 1] bcast_S128x1_S128x32_0_1 : (⟨S128x1, .f32⟩ : BufTy).Contents (Elt F) → (⟨S128x32, .f32⟩ : BufTy).Contents (Elt F)),
    StableHlo.binary main_v11 main_v15 main_v16 (mulf : (⟨S128x32, .f32⟩ : BufTy).Contents (Elt F) → (⟨S128x32, .f32⟩ : BufTy).Contents (Elt F) → (⟨S128x32, .f32⟩ : BufTy).Contents (Elt F)),
    StableHlo.unary main_arg4 main_v17 (broadcastInDim S1x32 ![1] bcast_S32_S1x32_1 : (⟨S32, .f32⟩ : BufTy).Contents (Elt F) → (⟨S1x32, .f32⟩ : BufTy).Contents (Elt F)),
    StableHlo.unary main_v17 main_v18 (broadcastInDim S128x32 ![0, 1] bcast_S1x32_S128x32_0_1 : (⟨S1x32, .f32⟩ : BufTy).Contents (Elt F) → (⟨S128x32, .f32⟩ : BufTy).Contents (Elt F)),
    StableHlo.binary main_v16 main_v18 main_v19 (mulf : (⟨S128x32, .f32⟩ : BufTy).Contents (Elt F) → (⟨S128x32, .f32⟩ : BufTy).Contents (Elt F) → (⟨S128x32, .f32⟩ : BufTy).Contents (Elt F)),
    StableHlo.unary main_arg5 main_v20 (broadcastInDim S1x32 ![1] bcast_S32_S1x32_1 : (⟨S32, .f32⟩ : BufTy).Contents (Elt F) → (⟨S1x32, .f32⟩ : BufTy).Contents (Elt F)),
    StableHlo.unary main_v20 main_v21 (broadcastInDim S128x32 ![0, 1] bcast_S1x32_S128x32_0_1 : (⟨S1x32, .f32⟩ : BufTy).Contents (Elt F) → (⟨S128x32, .f32⟩ : BufTy).Contents (Elt F)),
    StableHlo.binary main_v19 main_v21 main_v22 (addf : (⟨S128x32, .f32⟩ : BufTy).Contents (Elt F) → (⟨S128x32, .f32⟩ : BufTy).Contents (Elt F) → (⟨S128x32, .f32⟩ : BufTy).Contents (Elt F)),
    -- its positive part
    StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_v0 : StableHlo.TRef sig ⟨S128x32, .f32⟩) (broadcastInDim S128x32 ![] bcast_S_S128x32),
    StableHlo.TRef.binary (.of main_v22 : StableHlo.TRef sig ⟨S128x32, .f32⟩) (.of main_call1_v0 : StableHlo.TRef sig ⟨S128x32, .f32⟩) (.of main_v23 : StableHlo.TRef sig ⟨S128x32, .f32⟩) maximumf,
    -- the weight network's second linear layer, reshaped [128, 4096] -> [128, 64, 64]: the WEIGHT (main_v29); then the bias network's first linear layer and its rows' means
    StableHlo.unary main_arg6 main_v24 ((transpose S32x4096 [1, 0] · transposes_S4096x32_S32x4096_1_0) : (⟨S4096x32, .f32⟩ : BufTy).Contents (Elt F) → (⟨S32x4096, .f32⟩ : BufTy).Contents (Elt F)),
    StableHlo.binary main_v23 main_v24 main_v25 ((fun l r => Host.dotGeneral dot_S128x32_S32x4096_S128x4096_1_0_0_1_n_n none l r) : (⟨S128x32, .f32⟩ : BufTy).Contents (Elt F) → (⟨S32x4096, .f32⟩ : BufTy).Contents (Elt F) → (⟨S128x4096, .f32⟩ : BufTy).Contents (Elt F)),
    StableHlo.unary main_arg7 main_v26 (broadcastInDim S1x4096 ![1] bcast_S4096_S1x4096_1 : (⟨S4096, .f32⟩ : BufTy).Contents (Elt F) → (⟨S1x4096, .f32⟩ : BufTy).Contents (Elt F)),
    StableHlo.unary main_v26 main_v27 (broadcastInDim S128x4096 ![0, 1] bcast_S1x4096_S128x4096_0_1 : (⟨S1x4096, .f32⟩ : BufTy).Contents (Elt F) → (⟨S128x4096, .f32⟩ : BufTy).Contents (Elt F)),
    StableHlo.binary main_v25 main_v27 main_v28 (addf : (⟨S128x4096, .f32⟩ : BufTy).Contents (Elt F) → (⟨S128x4096, .f32⟩ : BufTy).Contents (Elt F) → (⟨S128x4096, .f32⟩ : BufTy).Contents (Elt F)),
    StableHlo.reshape main_v28 main_v29 rfl shapeCasts_S128x4096_S128x64x64,
    StableHlo.unary main_arg8 main_v30 ((transpose S3x32 [1, 0] · transposes_S32x3_S3x32_1_0) : (⟨S32x3, .f32⟩ : BufTy).Contents (Elt F) → (⟨S3x32, .f32⟩ : BufTy).Contents (Elt F)),
    StableHlo.binary main_arg1 main_v30 main_v31 ((fun l r => Host.dotGeneral dot_S128x3_S3x32_S128x32_1_0_0_1_n_n none l r) : (⟨S128x3, .f32⟩ : BufTy).Contents (Elt F) → (⟨S3x32, .f32⟩ : BufTy).Contents (Elt F) → (⟨S128x32, .f32⟩ : BufTy).Contents (Elt F)),
    StableHlo.unary main_arg9 main_v32 (broadcastInDim S1x32 ![1] bcast_S32_S1x32_1 : (⟨S32, .f32⟩ : BufTy).Contents (Elt F) → (⟨S1x32, .f32⟩ : BufTy).Contents (Elt F)),
    StableHlo.unary main_v32 main_v33 (broadcastInDim S128x32 ![0, 1] bcast_S1x32_S128x32_0_1 : (⟨S1x32, .f32⟩ : BufTy).Contents (Elt F) → (⟨S128x32, .f32⟩ : BufTy).Contents (Elt F)),
    StableHlo.binary main_v31 main_v33 main_v34 (addf : (⟨S128x32, .f32⟩ : BufTy).Contents (Elt F) → (⟨S128x32, .f32⟩ : BufTy).Contents (Elt F) → (⟨S128x32, .f32⟩ : BufTy).Contents (Elt F)),
    StableHlo.nullary main_cst_2 (constant S_ .f32 0x00000000#32),
    StableHlo.binary main_v34 main_cst_2 main_v35 ((fun x v => Host.reduceAdd x v reducesTo_S128x32_S128_d1 h_S_) : (⟨S128x32, .f32⟩ : BufTy).Contents (Elt F) → (⟨S_, .f32⟩ : BufTy).Contents (Elt F) → (⟨S128, .f32⟩ : BufTy).Contents (Elt F)),
    StableHlo.unary main_v35 main_v36 (broadcastInDim S128x1 ![0] bcast_S128_S128x1_0 : (⟨S128, .f32⟩ : BufTy).Contents (Elt F) → (⟨S128x1, .f32⟩ : BufTy).Contents (Elt F)),
    StableHlo.nullary main_cst_3 (constant S_ .f32 0x42000000#32),
    StableHlo.unary main_cst_3 main_v37 (broadcastInDim S128x1 ![] bcast_S_S128x1 : (⟨S_, .f32⟩ : BufTy).Contents (Elt F) → (⟨S128x1, .f32⟩ : BufTy).Contents (Elt F)),
    StableHlo.binary main_v36 main_v37 main_v38 (Host.divf : (⟨S128x1, .f32⟩ : BufTy).Contents (Elt F) → (⟨S128x1, .f32⟩ : BufTy).Contents (Elt F) → (⟨S128x1, .f32⟩ : BufTy).Contents (Elt F)),
    StableHlo.nullary main_c_4 (constantI S_ 32 0#32),
    -- the variance of each row, for the bias network
    StableHlo.TRef.nullary (.of main_call2_cst : StableHlo.TRef sig ⟨S_, .f32⟩) (constant S_ .f32 0x00000000#32),
    StableHlo.TRef.binary (.of main_v34 : StableHlo.TRef sig ⟨S128x32, .f32⟩) (.of main_call2_cst : StableHlo.TRef sig ⟨S_, .f32⟩) (.of main_call2_v0 : StableHlo.TRef sig ⟨S128, .f32⟩) (fun x v => Host.reduceAdd x v reducesTo_S128x32_S128_d1 h_S_),
    StableHlo.TRef.unary (.of main_call2_v0 : StableHlo.TRef sig ⟨S128, .f32⟩) (.of main_call2_v1 : StableHlo.TRef sig ⟨S128x1, .f32⟩) (broadcastInDim S128x1 ![0] bcast_S128_S128x1_0),
    StableHlo.TRef.nullary (.of main_call2_cst_0 : StableHlo.TRef sig ⟨S_, .f32⟩) (constant S_ .f32 0x42000000#32),
    StableHlo.TRef.unary (.of main_call2_cst_0 : StableHlo.TRef sig ⟨S_, .f32⟩) (.of main_call2_v2 : StableHlo.TRef sig ⟨S128x1, .f32⟩) (broadcastInDim S128x1 ![] bcast_S_S128x1),
    StableHlo.TRef.binary (.of main_call2_v1 : StableHlo.TRef sig ⟨S128x1, .f32⟩) (.of main_call2_v2 : StableHlo.TRef sig ⟨S128x1, .f32⟩) (.of main_call2_v3 : StableHlo.TRef sig ⟨S128x1, .f32⟩) Host.divf,
    StableHlo.TRef.unary (.of main_call2_v3 : StableHlo.TRef sig ⟨S128x1, .f32⟩) (.of main_call2_v4 : StableHlo.TRef sig ⟨S128x32, .f32⟩) (broadcastInDim S128x32 ![0, 1] bcast_S128x1_S128x32_0_1),
    StableHlo.TRef.binary (.of main_v34 : StableHlo.TRef sig ⟨S128x32, .f32⟩) (.of main_call2_v4 : StableHlo.TRef sig ⟨S128x32, .f32⟩) (.of main_call2_v5 : StableHlo.TRef sig ⟨S128x32, .f32⟩) subf,
    StableHlo.TRef.binary (.of main_call2_v5 : StableHlo.TRef sig ⟨S128x32, .f32⟩) (.of main_call2_v5 : StableHlo.TRef sig ⟨S128x32, .f32⟩) (.of main_call2_v6 : StableHlo.TRef sig ⟨S128x32, .f32⟩) mulf,
    StableHlo.TRef.unary (.of main_c_4 : StableHlo.TRef sig ⟨S_, .i32⟩) (.of main_call2_v7 : StableHlo.TRef sig ⟨S_, .f32⟩) (sitofp .f32),
    StableHlo.TRef.nullary (.of main_call2_cst_1 : StableHlo.TRef sig ⟨S_, .f32⟩) (constant S_ .f32 0x42000000#32),
    StableHlo.TRef.binary (.of main_call2_cst_1 : StableHlo.TRef sig ⟨S_, .f32⟩) (.of main_call2_v7 : StableHlo.TRef sig ⟨S_, .f32⟩) (.of main_call2_v8 : StableHlo.TRef sig ⟨S_, .f32⟩) subf,
    StableHlo.TRef.nullary (.of main_call2_cst_2 : StableHlo.TRef sig ⟨S_, .f32⟩) (constant S_ .f32 0x00000000#32),
    StableHlo.TRef.binary (.of main_call2_v6 : StableHlo.TRef sig ⟨S128x32, .f32⟩) (.of main_call2_cst_2 : StableHlo.TRef sig ⟨S_, .f32⟩) (.of main_call2_v9 : StableHlo.TRef sig ⟨S128, .f32⟩) (fun x v => Host.reduceAdd x v reducesTo_S128x32_S128_d1 h_S_),
    StableHlo.TRef.unary (.of main_call2_v9 : StableHlo.TRef sig ⟨S128, .f32⟩) (.of main_call2_v10 : StableHlo.TRef sig ⟨S128x1, .f32⟩) (broadcastInDim S128x1 ![0] bcast_S128_S128x1_0),
    StableHlo.TRef.unary (.of main_call2_v8 : StableHlo.TRef sig ⟨S_, .f32⟩) (.of main_call2_v11 : StableHlo.TRef sig ⟨S128x1, .f32⟩) (broadcastInDim S128x1 ![] bcast_S_S128x1),
    StableHlo.TRef.binary (.of main_call2_v10 : StableHlo.TRef sig ⟨S128x1, .f32⟩) (.of main_call2_v11 : StableHlo.TRef sig ⟨S128x1, .f32⟩) (.of main_call2_v12 : StableHlo.TRef sig ⟨S128x1, .f32⟩) Host.divf,
    StableHlo.TRef.nullary (.of main_call2_cst_3 : StableHlo.TRef sig ⟨S_, .f32⟩) (constant S_ .f32 0x00000000#32),
    StableHlo.TRef.binary (.of main_call2_v8 : StableHlo.TRef sig ⟨S_, .f32⟩) (.of main_call2_cst_3 : StableHlo.TRef sig ⟨S_, .f32⟩) (.of main_call2_v13 : StableHlo.TRef sig ⟨S_, .i1⟩) (cmpf .ogt),
    StableHlo.TRef.nullary (.of main_call2_cst_4 : StableHlo.TRef sig ⟨S_, .f32⟩) (constant S_ .f32 0x7FC00000#32),
    StableHlo.TRef.unary (.of main_call2_cst_4 : StableHlo.TRef sig ⟨S_, .f32⟩) (.of main_call2_call0_v0 : StableHlo.TRef sig ⟨S_, .f32⟩) id,
    StableHlo.TRef.unary (.of main_call2_call0_v0 : StableHlo.TRef sig ⟨S_, .f32⟩) (.of main_call2_call0_v1 : StableHlo.TRef sig ⟨S128x1, .f32⟩) (broadcastInDim S128x1 ![] bcast_S_S128x1),
    StableHlo.TRef.ternary (.of main_call2_v13 : StableHlo.TRef sig ⟨S_, .i1⟩) (.of main_call2_v12 : StableHlo.TRef sig ⟨S128x1, .f32⟩) (.of main_call2_call0_v1 : StableHlo.TRef sig ⟨S128x1, .f32⟩) (.of main_v39 : StableHlo.TRef sig ⟨S128x1, .f32⟩) (fun p a b => select (broadcastInDim S128x1 ![] bcast_S_S128x1 p) a b),
    -- its layer norm
    StableHlo.unary main_v38 main_v40 (broadcastInDim S128x32 ![0, 1] bcast_S128x1_S128x32_0_1 : (⟨S128x1, .f32⟩ : BufTy).Contents (Elt F) → (⟨S128x32, .f32⟩ : BufTy).Contents (Elt F)),
    StableHlo.binary main_v34 main_v40 main_v41 (subf : (⟨S128x32, .f32⟩ : BufTy).Contents (Elt F) → (⟨S128x32, .f32⟩ : BufTy).Contents (Elt F) → (⟨S128x32, .f32⟩ : BufTy).Contents (Elt F)),
    StableHlo.nullary main_cst_5 (constant S_ .f32 0x3727C5AC#32),
    StableHlo.unary main_cst_5 main_v42 (broadcastInDim S128x1 ![] bcast_S_S128x1 : (⟨S_, .f32⟩ : BufTy).Contents (Elt F) → (⟨S128x1, .f32⟩ : BufTy).Contents (Elt F)),
    StableHlo.binary main_v39 main_v42 main_v43 (addf : (⟨S128x1, .f32⟩ : BufTy).Contents (Elt F) → (⟨S128x1, .f32⟩ : BufTy).Contents (Elt F) → (⟨S128x1, .f32⟩ : BufTy).Contents (Elt F)),
    StableHlo.unary main_v43 main_v44 (Host.rsqrt : (⟨S128x1, .f32⟩ : BufTy).Contents (Elt F) → (⟨S128x1, .f32⟩ : BufTy).Contents (Elt F)),
    StableHlo.unary main_v44 main_v45 (broadcastInDim S128x32 ![0, 1] bcast_S128x1_S128x32_0_1 : (⟨S128x1, .f32⟩ : BufTy).Contents (Elt F) → (⟨S128x32, .f32⟩ : BufTy).Contents (Elt F)),
    StableHlo.binary main_v41 main_v45 main_v46 (mulf : (⟨S128x32, .f32⟩ : BufTy).Contents (Elt F) → (⟨S128x32, .f32⟩ : BufTy).Contents (Elt F) → (⟨S128x32, .f32⟩ : BufTy).Contents (Elt F)),
    StableHlo.unary main_arg10 main_v47 (broadcastInDim S1x32 ![1] bcast_S32_S1x32_1 : (⟨S32, .f32⟩ : BufTy).Contents (Elt F) → (⟨S1x32, .f32⟩ : BufTy).Contents (Elt F)),
    StableHlo.unary main_v47 main_v48 (broadcastInDim S128x32 ![0, 1] bcast_S1x32_S128x32_0_1 : (⟨S1x32, .f32⟩ : BufTy).Contents (Elt F) → (⟨S128x32, .f32⟩ : BufTy).Contents (Elt F)),
    StableHlo.binary main_v46 main_v48 main_v49 (mulf : (⟨S128x32, .f32⟩ : BufTy).Contents (Elt F) → (⟨S128x32, .f32⟩ : BufTy).Contents (Elt F) → (⟨S128x32, .f32⟩ : BufTy).Contents (Elt F)),
    StableHlo.unary main_arg11 main_v50 (broadcastInDim S1x32 ![1] bcast_S32_S1x32_1 : (⟨S32, .f32⟩ : BufTy).Contents (Elt F) → (⟨S1x32, .f32⟩ : BufTy).Contents (Elt F)),
    StableHlo.unary main_v50 main_v51 (broadcastInDim S128x32 ![0, 1] bcast_S1x32_S128x32_0_1 : (⟨S1x32, .f32⟩ : BufTy).Contents (Elt F) → (⟨S128x32, .f32⟩ : BufTy).Contents (Elt F)),
    StableHlo.binary main_v49 main_v51 main_v52 (addf : (⟨S128x32, .f32⟩ : BufTy).Contents (Elt F) → (⟨S128x32, .f32⟩ : BufTy).Contents (Elt F) → (⟨S128x32, .f32⟩ : BufTy).Contents (Elt F)),
    -- its positive part
    StableHlo.TRef.nullary (.of main_call3_cst : StableHlo.TRef sig ⟨S_, .f32⟩) (constant S_ .f32 0x00000000#32),
    StableHlo.TRef.unary (.of main_call3_cst : StableHlo.TRef sig ⟨S_, .f32⟩) (.of main_call3_v0 : StableHlo.TRef sig ⟨S128x32, .f32⟩) (broadcastInDim S128x32 ![] bcast_S_S128x32),
    StableHlo.TRef.binary (.of main_v52 : StableHlo.TRef sig ⟨S128x32, .f32⟩) (.of main_call3_v0 : StableHlo.TRef sig ⟨S128x32, .f32⟩) (.of main_v53 : StableHlo.TRef sig ⟨S128x32, .f32⟩) maximumf,
    -- the bias network's second linear layer: the BIAS [128, 64] (main_v58)
    StableHlo.unary main_arg12 main_v54 ((transpose S32x64 [1, 0] · transposes_S64x32_S32x64_1_0) : (⟨S64x32, .f32⟩ : BufTy).Contents (Elt F) → (⟨S32x64, .f32⟩ : BufTy).Contents (Elt F)),
    StableHlo.binary main_v53 main_v54 main_v55 ((fun l r => Host.dotGeneral dot_S128x32_S32x64_S128x64_1_0_0_1_n_n none l r) : (⟨S128x32, .f32⟩ : BufTy).Contents (Elt F) → (⟨S32x64, .f32⟩ : BufTy).Contents (Elt F) → (⟨S128x64, .f32⟩ : BufTy).Contents (Elt F)),
    StableHlo.unary main_arg13 main_v56 (broadcastInDim S1x64 ![1] bcast_S64_S1x64_1 : (⟨S64, .f32⟩ : BufTy).Contents (Elt F) → (⟨S1x64, .f32⟩ : BufTy).Contents (Elt F)),
    StableHlo.unary main_v56 main_v57 (broadcastInDim S128x64 ![0, 1] bcast_S1x64_S128x64_0_1 : (⟨S1x64, .f32⟩ : BufTy).Contents (Elt F) → (⟨S128x64, .f32⟩ : BufTy).Contents (Elt F)),
    StableHlo.binary main_v55 main_v57 main_v58 (addf : (⟨S128x64, .f32⟩ : BufTy).Contents (Elt F) → (⟨S128x64, .f32⟩ : BufTy).Contents (Elt F) → (⟨S128x64, .f32⟩ : BufTy).Contents (Elt F)) ]

/-- Each touches TensorCore buffers only. -/
theorem prefixOps_sub : (prefixOps : List (HloOp τ sig (Elt F))).Forall fun op => op.bufs ⊆ StableHlo.tcRefs τ sig :=
  ⟨StableHlo.unary_bufs_sub .., StableHlo.binary_bufs_sub .., StableHlo.unary_bufs_sub .., StableHlo.unary_bufs_sub .., StableHlo.binary_bufs_sub .., StableHlo.nullary_bufs_sub .., StableHlo.binary_bufs_sub .., StableHlo.unary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.unary_bufs_sub .., StableHlo.unary_bufs_sub .., StableHlo.binary_bufs_sub .., StableHlo.reshape_bufs_sub .., StableHlo.unary_bufs_sub .., StableHlo.binary_bufs_sub .., StableHlo.unary_bufs_sub .., StableHlo.unary_bufs_sub .., StableHlo.binary_bufs_sub .., StableHlo.nullary_bufs_sub .., StableHlo.binary_bufs_sub .., StableHlo.unary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.unary_bufs_sub .., StableHlo.unary_bufs_sub .., StableHlo.binary_bufs_sub ..⟩

end Cert.ReferenceIdeal.Run

end
-- ==== Proof.ReferenceRun.lean ====
/-
  The reference program's run, read back.

  Its @main is a straight line of host operations: the 115 that make the per-sample weight and bias (the list
  `prefixOps`, each called function's operations at its call site), then four — the batched product of the weight with
  the signal, the bias given a unit time axis, that broadcast along time, and their sum. So every weakly fair execution
  terminates with each buffer at the fold of those operations over the launch contents (`run_all`), and the result buffer
  holds  dotGeneral (weight, x) + broadcast (broadcast bias)  of the weight and bias the prefix leaves (`out_eq`).
-/
import proofs.«180488_j83623013253335_1_alg».proof.Proof.ReferenceOps

noncomputable section

namespace Cert.ReferenceIdeal.Run

open Cert.ReferenceIdeal Cert.ReferenceIdeal.Gen Idealize.ShloMosaic Idealize.ShloMosaic.TcCoe Idealize.SL.Sem
open Idealize.ShloMosaic.StableHlo

variable {F : FTy → Type} [FloatOps F]

/-- The last four operations: the convolution itself. -/
abbrev convOps : List (HloOp τ sig (Elt F)) :=
  [ StableHlo.binary main_v29 main_arg0 main_v59 ((fun l r => Host.dotGeneral dot_S128x64x64_S128x64x4096_S128x64x4096_2_1_1_2_0_0 none l r) : (⟨S128x64x64, .f32⟩ : BufTy).Contents (Elt F) → (⟨S128x64x4096, .f32⟩ : BufTy).Contents (Elt F) → (⟨S128x64x4096, .f32⟩ : BufTy).Contents (Elt F)),
    StableHlo.unary main_v58 main_v60 (broadcastInDim S128x64x1 ![0, 1] bcast_S128x64_S128x64x1_0_1 : (⟨S128x64, .f32⟩ : BufTy).Contents (Elt F) → (⟨S128x64x1, .f32⟩ : BufTy).Contents (Elt F)),
    StableHlo.unary main_v60 main_v61 (broadcastInDim S128x64x4096 ![0, 1, 2] bcast_S128x64x1_S128x64x4096_0_1_2 : (⟨S128x64x1, .f32⟩ : BufTy).Contents (Elt F) → (⟨S128x64x4096, .f32⟩ : BufTy).Contents (Elt F)),
    StableHlo.binary main_v59 main_v61 main_v62 (addf : (⟨S128x64x4096, .f32⟩ : BufTy).Contents (Elt F) → (⟨S128x64x4096, .f32⟩ : BufTy).Contents (Elt F) → (⟨S128x64x4096, .f32⟩ : BufTy).Contents (Elt F)) ]

theorem convOps_sub : (convOps : List (HloOp τ sig (Elt F))).Forall fun op => op.bufs ⊆ tcRefs τ sig :=
  ⟨binary_bufs_sub .., unary_bufs_sub .., unary_bufs_sub .., binary_bufs_sub ..⟩

/-- @main's operations, in order. -/
abbrev ops : List (HloOp τ sig (Elt F)) := prefixOps ++ convOps

/-- The contents after two lines run one after the other. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

theorem ops_sub : (ops : List (HloOp τ sig (Elt F))).Forall fun op => op.bufs ⊆ tcRefs τ sig :=
  List.forall_append.mpr ⟨prefixOps_sub, convOps_sub⟩

-- a hundred and nineteen binds re-associated: the rewriting under the chain recurses once per statement
set_option maxRecDepth 8192 in
set_option maxHeartbeats 4000000 in
/-- @main is that straight line: the functions' definitions unfolded at their calls, both sides one chain of steps once
    sequencing is re-associated. -/
theorem main_eq (c : Dev nD) : main (F := F) c = seq ops := by
  simp only [main, main_part0, main_part1, fn_var.body, fn_where.body, fn_relu.body, seq, List.cons_append, List.nil_append,
    bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every weakly fair execution of @main terminates, each TensorCore buffer at the fold of the operations over the launch
    contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ

/-- THE RESULT BUFFER after the last four operations, from any contents W (the prefix's): the batched product of the
    weight buffer with the signal, plus the bias buffer broadcast along a new unit axis and then along time. -/
theorem conv_result (W : Valuation τ sig (Elt F)) :
    after convOps W (Proc.devRef .tc main_v62)
      = addf (Host.dotGeneral dot_S128x64x64_S128x64x4096_S128x64x4096_2_1_1_2_0_0 none (W (Proc.devRef .tc main_v29)) (W (Proc.devRef .tc main_arg0)))
          (broadcastInDim S128x64x4096 ![0, 1, 2] bcast_S128x64x1_S128x64x4096_0_1_2
            (broadcastInDim S128x64x1 ![0, 1] bcast_S128x64_S128x64x1_0_1 (W (Proc.devRef .tc main_v58)))) := by
  after_results

/-! ## No operation writes an argument buffer -/

/-- A buffer that no operation of a literal line writes keeps its contents: each operation writes the one buffer it
    names, and that buffer is not the one asked about (decided on the references). -/
macro "not_written" : tactic => `(tactic| (
  refine after_of_forall_not_mem _ _ (List.forall_iff_forall_mem.mp ?_)
  simp only [ops, prefixOps, convOps, List.cons_append, List.nil_append, List.Forall, nullary_writes, unary_writes, binary_writes,
    ternary_writes, reshape_writes, Finset.mem_singleton]
  repeat' apply And.intro
  all_goals exact devRef_ne_of_ne (by decide)))

theorem kept_arg0 (V : Valuation τ sig (Elt F)) : after ops V (Proc.devRef .tc main_arg0) = V (Proc.devRef .tc main_arg0) := by
  not_written
theorem kept_arg1 (V : Valuation τ sig (Elt F)) : after ops V (Proc.devRef .tc main_arg1) = V (Proc.devRef .tc main_arg1) := by
  not_written
theorem kept_arg2 (V : Valuation τ sig (Elt F)) : after ops V (Proc.devRef .tc main_arg2) = V (Proc.devRef .tc main_arg2) := by
  not_written
theorem kept_arg3 (V : Valuation τ sig (Elt F)) : after ops V (Proc.devRef .tc main_arg3) = V (Proc.devRef .tc main_arg3) := by
  not_written
theorem kept_arg4 (V : Valuation τ sig (Elt F)) : after ops V (Proc.devRef .tc main_arg4) = V (Proc.devRef .tc main_arg4) := by
  not_written
theorem kept_arg5 (V : Valuation τ sig (Elt F)) : after ops V (Proc.devRef .tc main_arg5) = V (Proc.devRef .tc main_arg5) := by
  not_written
theorem kept_arg6 (V : Valuation τ sig (Elt F)) : after ops V (Proc.devRef .tc main_arg6) = V (Proc.devRef .tc main_arg6) := by
  not_written
theorem kept_arg7 (V : Valuation τ sig (Elt F)) : after ops V (Proc.devRef .tc main_arg7) = V (Proc.devRef .tc main_arg7) := by
  not_written
theorem kept_arg8 (V : Valuation τ sig (Elt F)) : after ops V (Proc.devRef .tc main_arg8) = V (Proc.devRef .tc main_arg8) := by
  not_written
theorem kept_arg9 (V : Valuation τ sig (Elt F)) : after ops V (Proc.devRef .tc main_arg9) = V (Proc.devRef .tc main_arg9) := by
  not_written
theorem kept_arg10 (V : Valuation τ sig (Elt F)) : after ops V (Proc.devRef .tc main_arg10) = V (Proc.devRef .tc main_arg10) := by
  not_written
theorem kept_arg11 (V : Valuation τ sig (Elt F)) : after ops V (Proc.devRef .tc main_arg11) = V (Proc.devRef .tc main_arg11) := by
  not_written
theorem kept_arg12 (V : Valuation τ sig (Elt F)) : after ops V (Proc.devRef .tc main_arg12) = V (Proc.devRef .tc main_arg12) := by
  not_written
theorem kept_arg13 (V : Valuation τ sig (Elt F)) : after ops V (Proc.devRef .tc main_arg13) = V (Proc.devRef .tc main_arg13) := by
  not_written

/-- The prefix leaves the signal as launched (it never names it). -/
theorem prefix_kept_arg0 (V : Valuation τ sig (Elt F)) :
    after prefixOps V (Proc.devRef .tc main_arg0) = V (Proc.devRef .tc main_arg0) := by
  not_written

/-- THE RESULT BUFFER after the whole line: the last four operations' term over what the prefix leaves in the weight and
    bias buffers, and the signal as launched. -/
theorem out_eq (V : Valuation τ sig (Elt F)) :
    after ops V (Proc.devRef .tc main_v62)
      = addf (Host.dotGeneral dot_S128x64x64_S128x64x4096_S128x64x4096_2_1_1_2_0_0 none
            (after prefixOps V (Proc.devRef .tc main_v29)) (V (Proc.devRef .tc main_arg0)))
          (broadcastInDim S128x64x4096 ![0, 1, 2] bcast_S128x64x1_S128x64x4096_0_1_2
            (broadcastInDim S128x64x1 ![0, 1] bcast_S128x64_S128x64x1_0_1 (after prefixOps V (Proc.devRef .tc main_v58)))) := by
  rw [after_append, conv_result, prefix_kept_arg0]

end Cert.ReferenceIdeal.Run

end
-- ==== Proof.ReferenceValue.lean ====
/-
  The reference's last four operations, read at an index, at the ideal values.

  `dot_general` with batch axis 0 and the contraction of the weight's last axis with the signal's middle axis is, at
  (b, o, t), the sum over i of w (b, o, i) * x (b, i, t); the bias is given a unit third axis and then broadcast along the
  4096 time steps, so at (b, o, t) it reads bias (b, o); the sum of the two is the per-sample convolution
  `Cert.Spec.groupedConv`.
-/
import proofs.«180488_j83623013253335_1_alg».proof.Proof.Gen.ReferenceIdeal
import proofs.«180488_j83623013253335_1_alg».proof.Proof.LibBatchedProduct
import proofs.«180488_j83623013253335_1_alg».proof.Proof.ConvSpec
import Idealize.ShloMosaic.Lib.Pipeline.Value

noncomputable section

open scoped BigOperators

namespace Cert.ReferenceIdeal.RefValue

open Cert.ReferenceIdeal Cert.ReferenceIdeal.Gen Idealize.ShloMosaic Idealize.ShloMosaic.ValueIdx Cert.Lib.BatchedProduct

/-- The reference's dimension numbers are those of `bmk,bkn->bmn`. -/
theorem dims_batched :
    Batched (B := 128) (M := 64) (K := 64) (N := 4096) dot_S128x64x64_S128x64x4096_S128x64x4096_2_1_1_2_0_0 :=
  ⟨rfl, rfl, rfl, rfl, rfl, rfl⟩

/-- The bias with a unit time axis, broadcast along the 4096 time steps, reads (b, o) at (b, o, t). -/
theorem bias_apply (bias : S128x64.Idx → EReal) (h1 : S128x64.BroadcastsInDim S128x64x1 (![0, 1] : Fin 2 → Fin S128x64x1.rank))
    (h2 : S128x64x1.BroadcastsInDim S128x64x4096 (![0, 1, 2] : Fin 3 → Fin S128x64x4096.rank)) (b : Fin 128) (o : Fin 64) (t : Fin 4096) :
    broadcastInDim S128x64x4096 ![0, 1, 2] h2 (broadcastInDim S128x64x1 ![0, 1] h1 bias) (ix3 b o t) = bias (ix2 b o) := by
  rw [broadcastInDim_apply _ h2 _ (ix3 b o t) (ix3 b o (0 : Fin 1)) (fun a => by
    match a with
    | ⟨0, _⟩ => rfl
    | ⟨1, _⟩ => rfl
    | ⟨2, _⟩ => rfl)]
  exact broadcastInDim_apply _ h1 bias (ix3 b o (0 : Fin 1)) (ix2 b o) (fun a => by
    match a with
    | ⟨0, _⟩ => rfl
    | ⟨1, _⟩ => rfl)

/-- THE REFERENCE'S RESULT TERM is the convolution of its three operands. -/
theorem conv_eq (w : FVec Ideal S128x64x64 .f32) (bias : FVec Ideal S128x64 .f32) (x : FVec Ideal S128x64x4096 .f32) :
    addf (Host.dotGeneral dot_S128x64x64_S128x64x4096_S128x64x4096_2_1_1_2_0_0 none w x)
        (broadcastInDim S128x64x4096 ![0, 1, 2] bcast_S128x64x1_S128x64x4096_0_1_2
          (broadcastInDim S128x64x1 ![0, 1] bcast_S128x64_S128x64x1_0_1 bias))
      = Cert.Spec.groupedConv w bias x := by
  funext j
  obtain ⟨b, o, t, rfl⟩ : ∃ (b : Fin 128) (o : Fin 64) (t : Fin 4096), j = ix3 b o t := ⟨j 0, j 1, j 2, eq_ix3 j⟩
  rw [addf_apply, bias_apply, Cert.Spec.groupedConv_apply]
  simp only [Host.dotGeneral]
  rw [dotGeneral_apply dims_batched]

end Cert.ReferenceIdeal.RefValue

end
-- ==== Proof.HostChain.lean ====
/-
  The two programs' host prefixes compute the same weight and the same bias.

  Before its pallas_call the kernel program runs, on the host, the very operations the reference runs before its
  `dot_general`: two small networks (Linear, LayerNorm, ReLU, Linear) applied to z, one giving the per-sample weight
  [128, 64, 64], the other the per-sample bias [128, 64]. Operation by operation the two lists apply the same function to
  the same earlier results; only the buffers' names live in two different signatures. So folding either list over
  contents that agree on the thirteen argument buffers the networks read leaves equal contents in the weight buffer
  and in the bias buffer: each fold, read at that buffer, is one composed term of the arguments, and the two terms are
  the same term. Nothing inside the networks (the variance, the rsqrt, the products) is ever opened.
-/
import proofs.«180488_j83623013253335_1_alg».proof.Proof.Gen.KernelIdeal.Frame
import proofs.«180488_j83623013253335_1_alg».proof.Proof.ReferenceOps

noncomputable section

namespace Cert.HostChain

open Idealize.ShloMosaic Idealize.ShloMosaic.TcCoe Idealize.SL.Sem Idealize.ShloMosaic.StableHlo

variable {F : FTy → Type} [FloatOps F]

/-- The kernel program's host prefix as one list: the nine stretches of its generated launch, in order. -/
abbrev kernelPrefix : List (HloOp Cert.KernelIdeal.τ Cert.KernelIdeal.sig (Elt F)) :=
  List.flatten [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8]

set_option maxRecDepth 16384 in
set_option maxHeartbeats 8000000 in
/-- THE WEIGHT: the reference's prefix and the kernel program's leave the same contents in `main_v29`, a term of z and the weight network's six parameter arrays. -/
theorem weight_eq (VK : Valuation Cert.KernelIdeal.τ Cert.KernelIdeal.sig (Elt F)) (VR : Valuation Cert.ReferenceIdeal.τ Cert.ReferenceIdeal.sig (Elt F))
    (h1 : VR (Proc.devRef .tc Cert.ReferenceIdeal.main_arg1) = VK (Proc.devRef .tc Cert.KernelIdeal.main_arg1))
    (h2 : VR (Proc.devRef .tc Cert.ReferenceIdeal.main_arg2) = VK (Proc.devRef .tc Cert.KernelIdeal.main_arg2))
    (h3 : VR (Proc.devRef .tc Cert.ReferenceIdeal.main_arg3) = VK (Proc.devRef .tc Cert.KernelIdeal.main_arg3))
    (h4 : VR (Proc.devRef .tc Cert.ReferenceIdeal.main_arg4) = VK (Proc.devRef .tc Cert.KernelIdeal.main_arg4))
    (h5 : VR (Proc.devRef .tc Cert.ReferenceIdeal.main_arg5) = VK (Proc.devRef .tc Cert.KernelIdeal.main_arg5))
    (h6 : VR (Proc.devRef .tc Cert.ReferenceIdeal.main_arg6) = VK (Proc.devRef .tc Cert.KernelIdeal.main_arg6))
    (h7 : VR (Proc.devRef .tc Cert.ReferenceIdeal.main_arg7) = VK (Proc.devRef .tc Cert.KernelIdeal.main_arg7)) :
    after Cert.ReferenceIdeal.Run.prefixOps VR (Proc.devRef .tc Cert.ReferenceIdeal.main_v29)
      = after kernelPrefix VK (Proc.devRef .tc Cert.KernelIdeal.main_v29) := by
  simp only [kernelPrefix, Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.ReferenceIdeal.Run.prefixOps,
    List.flatten_cons, List.flatten_nil, List.append_nil, List.cons_append, List.nil_append]
  after_results_simp
  rw [h1, h2, h3, h4, h5, h6, h7]
  rfl

set_option maxRecDepth 16384 in
set_option maxHeartbeats 8000000 in
/-- THE BIAS: likewise in `main_v58`, a term of z and the bias network's six parameter arrays. -/
theorem bias_eq (VK : Valuation Cert.KernelIdeal.τ Cert.KernelIdeal.sig (Elt F)) (VR : Valuation Cert.ReferenceIdeal.τ Cert.ReferenceIdeal.sig (Elt F))
    (h1 : VR (Proc.devRef .tc Cert.ReferenceIdeal.main_arg1) = VK (Proc.devRef .tc Cert.KernelIdeal.main_arg1))
    (h8 : VR (Proc.devRef .tc Cert.ReferenceIdeal.main_arg8) = VK (Proc.devRef .tc Cert.KernelIdeal.main_arg8))
    (h9 : VR (Proc.devRef .tc Cert.ReferenceIdeal.main_arg9) = VK (Proc.devRef .tc Cert.KernelIdeal.main_arg9))
    (h10 : VR (Proc.devRef .tc Cert.ReferenceIdeal.main_arg10) = VK (Proc.devRef .tc Cert.KernelIdeal.main_arg10))
    (h11 : VR (Proc.devRef .tc Cert.ReferenceIdeal.main_arg11) = VK (Proc.devRef .tc Cert.KernelIdeal.main_arg11))
    (h12 : VR (Proc.devRef .tc Cert.ReferenceIdeal.main_arg12) = VK (Proc.devRef .tc Cert.KernelIdeal.main_arg12))
    (h13 : VR (Proc.devRef .tc Cert.ReferenceIdeal.main_arg13) = VK (Proc.devRef .tc Cert.KernelIdeal.main_arg13)) :
    after Cert.ReferenceIdeal.Run.prefixOps VR (Proc.devRef .tc Cert.ReferenceIdeal.main_v58)
      = after kernelPrefix VK (Proc.devRef .tc Cert.KernelIdeal.main_v58) := by
  simp only [kernelPrefix, Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.ReferenceIdeal.Run.prefixOps,
    List.flatten_cons, List.flatten_nil, List.append_nil, List.cons_append, List.nil_append]
  after_results_simp
  rw [h1, h8, h9, h10, h11, h12, h13]
  rfl

end Cert.HostChain

end
-- ==== Proof.lean ====
/-
  A per-sample 1×1 convolution whose weights come from a small network: the kernel against its reference, over the reals.

  Both programs first run, on the host, the same two networks (Linear, LayerNorm, ReLU, Linear) on z: one gives each of the
  128 samples its own 64 × 64 weight matrix, the other its 64 biases. Then
      out (b, o, t) = (∑ i : Fin 64, weight (b, o, i) * x (b, i, t)) + bias (b, o)          (t over 4096 time steps).
  The reference computes it with one batched `dot_general` and a broadcast sum. The kernel walks the time axis in 32 blocks
  of 128, keeps weight and bias resident, narrows weight and signal to bf16 before its batched matrix product into a zero
  accumulator, and adds the bias. On the extended reals the narrowing is the identity, either product at an index is the
  plain sum over the 64 input channels (Proof/LibBatchedProduct.lean), and the time axis is only carried along, so cutting
  it into blocks changes nothing (Proof/KernelArray.lean): both results are the function `Cert.Spec.groupedConv` of the
  same weight, the same bias (Proof/HostChain.lean: the two host prefixes are one composed term of the arguments, never
  opened) and the same signal. No law of arithmetic is used beyond that, so the inputs' finiteness is never needed.

  The frames of the two kernel programs are their generated frame certificates; the reference's frame and value come
  from its run read back as a straight line of host operations (Proof/ReferenceRun.lean). The idealization rewrote no
  operation, so `preserves` has nothing to state.
-/
import proofs.«180488_j83623013253335_1_alg».proof.Defs
import proofs.«180488_j83623013253335_1_alg».proof.Proof.Gen.Kernel
import proofs.«180488_j83623013253335_1_alg».proof.Proof.Gen.Kernel.Skeleton
import proofs.«180488_j83623013253335_1_alg».proof.Proof.Gen.Kernel.Launch
import proofs.«180488_j83623013253335_1_alg».proof.Proof.Gen.Kernel.Points
import proofs.«180488_j83623013253335_1_alg».proof.Proof.Gen.Kernel.Frame
import proofs.«180488_j83623013253335_1_alg».proof.Proof.Gen.KernelIdeal
import proofs.«180488_j83623013253335_1_alg».proof.Proof.Gen.KernelIdeal.Skeleton
import proofs.«180488_j83623013253335_1_alg».proof.Proof.Gen.KernelIdeal.Launch
import proofs.«180488_j83623013253335_1_alg».proof.Proof.Gen.KernelIdeal.Points
import proofs.«180488_j83623013253335_1_alg».proof.Proof.Gen.KernelIdeal.Frame
import proofs.«180488_j83623013253335_1_alg».proof.Proof.Gen.ReferenceIdeal
import proofs.«180488_j83623013253335_1_alg».proof.Proof.Gen.Pre_finite_inputs
import proofs.«180488_j83623013253335_1_alg».proof.Proof.KernelArray
import proofs.«180488_j83623013253335_1_alg».proof.Proof.ReferenceRun
import proofs.«180488_j83623013253335_1_alg».proof.Proof.ReferenceValue
import proofs.«180488_j83623013253335_1_alg».proof.Proof.HostChain
import Idealize.ShloMosaic.Adequacy
import Idealize.ShloMosaic.Init

noncomputable section

namespace Cert.Proof

open Idealize.ShloMosaic Idealize.ShloMosaic.TcCoe Idealize.SL.Sem Idealize.ShloMosaic.StableHlo

/-- The kernel program runs and leaves its arguments as they were: its generated frame certificate. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations none of which writes an argument buffer. -/
theorem frame_reference : Cert.frame_ReferenceIdeal := fun m ρ _ =>
  (θ_run Cert.ReferenceIdeal.defs _ _).mono (fun r h c =>
    ⟨(h c Cert.ReferenceIdeal.main_arg0).trans (Cert.ReferenceIdeal.Run.kept_arg0 _),
      (h c Cert.ReferenceIdeal.main_arg1).trans (Cert.ReferenceIdeal.Run.kept_arg1 _),
      (h c Cert.ReferenceIdeal.main_arg2).trans (Cert.ReferenceIdeal.Run.kept_arg2 _),
      (h c Cert.ReferenceIdeal.main_arg3).trans (Cert.ReferenceIdeal.Run.kept_arg3 _),
      (h c Cert.ReferenceIdeal.main_arg4).trans (Cert.ReferenceIdeal.Run.kept_arg4 _),
      (h c Cert.ReferenceIdeal.main_arg5).trans (Cert.ReferenceIdeal.Run.kept_arg5 _),
      (h c Cert.ReferenceIdeal.main_arg6).trans (Cert.ReferenceIdeal.Run.kept_arg6 _),
      (h c Cert.ReferenceIdeal.main_arg7).trans (Cert.ReferenceIdeal.Run.kept_arg7 _),
      (h c Cert.ReferenceIdeal.main_arg8).trans (Cert.ReferenceIdeal.Run.kept_arg8 _),
      (h c Cert.ReferenceIdeal.main_arg9).trans (Cert.ReferenceIdeal.Run.kept_arg9 _),
      (h c Cert.ReferenceIdeal.main_arg10).trans (Cert.ReferenceIdeal.Run.kept_arg10 _),
      (h c Cert.ReferenceIdeal.main_arg11).trans (Cert.ReferenceIdeal.Run.kept_arg11 _),
      (h c Cert.ReferenceIdeal.main_arg12).trans (Cert.ReferenceIdeal.Run.kept_arg12 _),
      (h c Cert.ReferenceIdeal.main_arg13).trans (Cert.ReferenceIdeal.Run.kept_arg13 _)⟩)
    (Cert.ReferenceIdeal.Run.run_all (F := Ideal) m ρ)

/-- The ideal pass rewrote nothing. -/
theorem preserves : Cert.preserves_Kernel_KernelIdeal := trivial

/-- Both programs end with the convolution of the weight and bias the kernel program's host prefix computes with the
    signal as launched: the kernel by its blocks (`Array.run`), the reference by its run (`Run.out_eq`), its last four
    operations read at an index (`RefValue.conv_eq`), and its prefix leaving the same weight and bias from arguments that
    agree (`HostChain.weight_eq`, `bias_eq`). -/
theorem algebraic : Cert.algebraic_KernelIdeal_ReferenceIdeal := by
  intro m ρ m' ρ' _ hagree
  refine ⟨fun c => Cert.Spec.groupedConv (Cert.KernelIdeal.Gen.V m c Cert.KernelIdeal.main_v29) (Cert.KernelIdeal.Gen.V m c Cert.KernelIdeal.main_v58)
      (m ((c.tc : Thread Cert.KernelIdeal.nD Cert.KernelIdeal.τ).loc Cert.KernelIdeal.main_arg0)), Cert.KernelIdeal.Array.run m ρ, ?_⟩
  refine (θ_run Cert.ReferenceIdeal.defs _ _).mono (fun r h c => ⟨?_,
      (h c Cert.ReferenceIdeal.main_arg0).trans (Cert.ReferenceIdeal.Run.kept_arg0 _),
      (h c Cert.ReferenceIdeal.main_arg1).trans (Cert.ReferenceIdeal.Run.kept_arg1 _),
      (h c Cert.ReferenceIdeal.main_arg2).trans (Cert.ReferenceIdeal.Run.kept_arg2 _),
      (h c Cert.ReferenceIdeal.main_arg3).trans (Cert.ReferenceIdeal.Run.kept_arg3 _),
      (h c Cert.ReferenceIdeal.main_arg4).trans (Cert.ReferenceIdeal.Run.kept_arg4 _),
      (h c Cert.ReferenceIdeal.main_arg5).trans (Cert.ReferenceIdeal.Run.kept_arg5 _),
      (h c Cert.ReferenceIdeal.main_arg6).trans (Cert.ReferenceIdeal.Run.kept_arg6 _),
      (h c Cert.ReferenceIdeal.main_arg7).trans (Cert.ReferenceIdeal.Run.kept_arg7 _),
      (h c Cert.ReferenceIdeal.main_arg8).trans (Cert.ReferenceIdeal.Run.kept_arg8 _),
      (h c Cert.ReferenceIdeal.main_arg9).trans (Cert.ReferenceIdeal.Run.kept_arg9 _),
      (h c Cert.ReferenceIdeal.main_arg10).trans (Cert.ReferenceIdeal.Run.kept_arg10 _),
      (h c Cert.ReferenceIdeal.main_arg11).trans (Cert.ReferenceIdeal.Run.kept_arg11 _),
      (h c Cert.ReferenceIdeal.main_arg12).trans (Cert.ReferenceIdeal.Run.kept_arg12 _),
      (h c Cert.ReferenceIdeal.main_arg13).trans (Cert.ReferenceIdeal.Run.kept_arg13 _)⟩)
    (Cert.ReferenceIdeal.Run.run_all (F := Ideal) m' ρ')
  rw [h c Cert.ReferenceIdeal.main_v62, Cert.ReferenceIdeal.Run.out_eq, Cert.ReferenceIdeal.RefValue.conv_eq]
  have hw := Cert.HostChain.weight_eq (F := Ideal) (launchContents m c) (launchContents m' c)
    ((hagree c).2.1) ((hagree c).2.2.1) ((hagree c).2.2.2.1) ((hagree c).2.2.2.2.1) ((hagree c).2.2.2.2.2.1) ((hagree c).2.2.2.2.2.2.1) ((hagree c).2.2.2.2.2.2.2.1)
  have hb := Cert.HostChain.bias_eq (F := Ideal) (launchContents m c) (launchContents m' c)
    ((hagree c).2.1) ((hagree c).2.2.2.2.2.2.2.2.1) ((hagree c).2.2.2.2.2.2.2.2.2.1) ((hagree c).2.2.2.2.2.2.2.2.2.2.1) ((hagree c).2.2.2.2.2.2.2.2.2.2.2.1) ((hagree c).2.2.2.2.2.2.2.2.2.2.2.2.1) ((hagree c).2.2.2.2.2.2.2.2.2.2.2.2.2)
  have hx : launchContents m' c (Proc.devRef .tc Cert.ReferenceIdeal.main_arg0) = m ((c.tc : Thread Cert.KernelIdeal.nD Cert.KernelIdeal.τ).loc Cert.KernelIdeal.main_arg0) := (hagree c).1
  rw [hw, hb, hx]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
